-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : IVec S262144 32) (main_arg2 : FVec F S256 .f32) (main_arg3 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S262144 : Shape := ⟨1, ![262144]⟩
abbrev S256 : Shape := ⟨1, ![256]⟩
abbrev S262144x2 : Shape := ⟨2, ![262144, 2]⟩
abbrev S4096x256 : Shape := ⟨2, ![4096, 256]⟩
abbrev S4096x2 : Shape := ⟨2, ![4096, 2]⟩
abbrev S4096 : Shape := ⟨1, ![4096]⟩
abbrev S4096x1 : Shape := ⟨2, ![4096, 1]⟩
abbrev S262144x1 : Shape := ⟨2, ![262144, 1]⟩
abbrev S_ : Shape := ⟨0, ![]⟩
abbrev S1024 : Shape := ⟨1, ![1024]⟩
abbrev S1x256 : Shape := ⟨2, ![1, 256]⟩

abbrev nBuf : Space → Nat
  | .hbm => 62
  | .vmem => 14
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256, .f32⟩
  | .hbm, ⟨3, _⟩ => ⟨S256, .f32⟩
  | .hbm, ⟨4, _⟩ => ⟨S262144x2, .f32⟩
  | .hbm, ⟨5, _⟩ => ⟨S262144x1, .f32⟩
  | .hbm, ⟨6, _⟩ => ⟨S262144, .f32⟩
  | .hbm, ⟨7, _⟩ => ⟨S262144x1, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S1024, .f32⟩
  | .hbm, ⟨13, _⟩ => ⟨S262144x1, .i32⟩
  | .hbm, ⟨14, _⟩ => ⟨S1024, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S262144x1, .i32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S262144x1, .i32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144, .f32⟩
  | .hbm, ⟨50, _⟩ => ⟨S262144x1, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144, .f32⟩
  | .hbm, ⟨60, _⟩ => ⟨S262144x1, .f32⟩
  | .hbm, ⟨61, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S4096x2, .f32⟩
  | .local _ .vmem, ⟨3, _⟩ => ⟨S4096x2, .f32⟩
  | .local _ .vmem, ⟨4, _⟩ => ⟨S4096x256, .f32⟩
  | .local _ .vmem, ⟨5, _⟩ => ⟨S4096x256, .f32⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x1, .f32⟩
  | .local _ .vmem, ⟨10, _⟩ => ⟨S256, .f32⟩
  | .local _ .vmem, ⟨11, _⟩ => ⟨S256, .f32⟩
  | .local _ .vmem, ⟨12, _⟩ => ⟨S4096x256, .f32⟩
  | .local _ .vmem, ⟨13, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  concatenates_S4096x1_S4096x1_S4096x2_d1 : Shape.Concatenates [S4096x1, S4096x1] S4096x2 1
  inb_S4096x2_S4096x2_0_0 : ∀ a, (![0, 0] : Fin 2 → Nat) a + S4096x2.size a ≤ S4096x2.size a
  h_S4096x2 : 0 < S4096x2.numel
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S_S1024 : S_.BroadcastsInDim S1024 (![] : Fin 0 → Fin S1024.rank)
  bcast_S262144_S262144x1_0 : S262144.BroadcastsInDim S262144x1 (![0] : Fin 1 → Fin S262144x1.rank)
  shapeCasts_S262144_S262144x1 : S262144.ShapeCasts S262144x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S256_S256_0 : ∀ a, (![0] : Fin 1 → Nat) a + S256.size a ≤ S256.size a
  h_S256 : 0 < S256.numel
  broadcasts_S4096x1_S4096x256 : S4096x1.Broadcasts S4096x256
  shapeCasts_S256_S1x256 : S256.ShapeCasts S1x256
  broadcasts_S1x256_S4096x256 : S1x256.Broadcasts S4096x256
  scatter_S1024_S262144x1_S262144_n_0_0_1_wf : ScatterDims.WF S1024 S262144x1 S262144 [] [0] [0] 1
  gather_S1024_S262144x1_S262144_n_0_n_n_0_1_1_wf : GatherDims.WF S1024 S262144x1 S262144 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S262144x2.size a
  hwx0_1 : ∀ i : grid0.Coords, EltTy.bits .f32 = 32 ∨ (Rect.block (s := S262144x2) S4096x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .f32 = 32 ∨ (Rect.block (s := S262144x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S262144x1.size a
  hwx1_2 : ∀ i : grid1.Coords, EltTy.bits .f32 = 32 ∨ (Rect.block (s := S262144x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S262144x256.size a
  hwx1_5 : ∀ i : grid1.Coords, EltTy.bits .f32 = 32 ∨ (Rect.block (s := S262144x256) S4096x256.size (cc1_transform_5 i) (hinb1_5 i)).WholeWords (EltTy.packing .f32)

variable [Facts₀]

def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def gather_S1024_S262144x1_S262144_n_0_n_n_0_1_1 : GatherDims S1024 S262144x1 S262144 where
  offsetDims := []
  collapsedSliceDims := [0]
  operandBatchingDims := []
  startIndicesBatchingDims := []
  startIndexMap := [0]
  indexVectorDim := 1
  sliceSizes := ![1]
  wf := gather_S1024_S262144x1_S262144_n_0_n_n_0_1_1_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S256 : Shape := ⟨1, ![256]⟩
abbrev S_ : Shape := ⟨0, ![]⟩
abbrev S1024 : Shape := ⟨1, ![1024]⟩
abbrev S262144x1 : Shape := ⟨2, ![262144, 1]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S1024, .f32⟩
  | .hbm, ⟨8, _⟩ => ⟨S262144x1, .i32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x256, .f32⟩
  | .hbm, ⟨20, _⟩ => ⟨S262144x1, .i32⟩
  | .hbm, ⟨21, _⟩ => ⟨S1024x256, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144x1, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S1024x256, .f32⟩
  | .hbm, ⟨40, _⟩ => ⟨S262144x1, .i32⟩
  | .hbm, ⟨41, _⟩ => ⟨S1024x256, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1, .f32⟩
  | .hbm, ⟨46, _⟩ => ⟨S1024x1, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x1, .f32⟩
  | .hbm, ⟨56, _⟩ => ⟨S_, .f32⟩
  | .hbm, ⟨57, _⟩ => ⟨S262144x1, .f32⟩
  | .hbm, ⟨58, _⟩ => ⟨S262144x1, .f32⟩
  | .hbm, ⟨59, _⟩ => ⟨S262144x256, .f32⟩
  | .hbm, ⟨60, _⟩ => ⟨S262144x256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S1x256, .f32⟩
  | .hbm, ⟨65, _⟩ => ⟨S262144x256, .f32⟩
  | .hbm, ⟨66, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S1024 : S_.BroadcastsInDim S1024 (![] : Fin 0 → Fin S1024.rank)
  bcast_S262144_S262144x1_0 : S262144.BroadcastsInDim S262144x1 (![0] : Fin 1 → Fin S262144x1.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x256 : S_.BroadcastsInDim S1024x256 (![] : Fin 0 → Fin S1024x256.rank)
  reducesTo_S1024x256_S1024_d1 : S1024x256.ReducesTo [1] S1024
  h_S_ : 0 < S_.numel
  bcast_S262144x1_S262144x256_0_1 : S262144x1.BroadcastsInDim S262144x256 (![0, 1] : Fin 2 → Fin S262144x256.rank)
  bcast_S_S262144x1 : S_.BroadcastsInDim S262144x1 (![] : Fin 0 → Fin S262144x1.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  scatter_S1024_S262144x1_S262144_n_0_0_1_wf : ScatterDims.WF S1024 S262144x1 S262144 [] [0] [0] 1
  scatter_S1024x256_S262144x1_S262144x256_1_0_0_1_wf : ScatterDims.WF S1024x256 S262144x1 S262144x256 [1] [0] [0] 1
  gather_S1024x1_S262144x1_S262144x1_1_0_n_n_0_1_11_wf : GatherDims.WF S1024x1 S262144x1 S262144x1 [1] [0] [] [0] [] 1 ![1, 1]

variable [Facts₀]

def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def gather_S1024x1_S262144x1_S262144x1_1_0_n_n_0_1_11 : GatherDims S1024x1 S262144x1 S262144x1 where
  offsetDims := [1]
  collapsedSliceDims := [0]
  operandBatchingDims := []
  startIndicesBatchingDims := []
  startIndexMap := [0]
  indexVectorDim := 1
  sliceSizes := ![1, 1]
  wf := gather_S1024x1_S262144x1_S262144x1_1_0_n_n_0_1_11_wf

class Facts : Prop extends Facts₀ where

variable [Facts]
-- ==== Proof.KernelStats.lean ====
/-
  The first launch, at any contents `V` of the buffers it is entered from: row `i` of its result holds the sum of row
  `i` of the matrix in column 0 and the sum of its squares in column 1.
-/
import proofs.«139286_j40578851012881_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Stats

open Idealize.ShloMosaic Idealize.ShloMosaic.TcCoe Idealize.SL.Sem Idealize.ShloMosaic.ValueIdx
open Cert.KernelIdeal Cert.KernelIdeal.Gen

/-! ## The body's value at an index of its block -/

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a block, read at row `p`: the sum of the row's 256 entries. -/
theorem laneSum_apply (x : FVec Ideal S4096x256 .f32) (h : S4096x256.Reduces [1] S4096) (hφ) (hacc) (p : Fin 4096) :
    multiReduction (F := Ideal) .add [1] S4096 x 0x00000000#32 h hφ hacc (ix1 p) = ∑ k : Fin 256, x (ix2 p k) := by
  rw [Ideal.multiReduction_add_single]
  show ∑ k : Fin 256, x (h.lift (ix1 p) k) = _
  refine Finset.sum_congr rfl fun k _ => congrArg x (funext fun c => Fin.ext ?_)
  match c with
  | ⟨0, _⟩ => rfl
  | ⟨1, _⟩ => rfl

/-- Column 0 of the body's value at row `p` of a block. -/
theorem pay_sum (x0 : FVec Ideal S4096x256 .f32) (p : Fin 4096) :
    k0_pay1 (F := Ideal) x0 (ix2 p (0 : Fin 2)) = ∑ k : Fin 256, x0 (ix2 p k) := by
  unfold k0_pay1
  refine (concatenate_pair_apply_left (s₁ := S4096x1) (s₂ := S4096x1) (1 : Fin S4096x2.rank) _ _ _ (ix2 p (0 : Fin 2)) rfl (ix2 p (0 : Fin 1))
    (fun b => by match b with | ⟨0, _⟩ => rfl | ⟨1, _⟩ => rfl)).trans ?_
  rw [shapeCast_a_a1_apply]
  exact laneSum_apply _ _ _ _ p

/-- Column 1 of the body's value at row `p` of a block. -/
theorem pay_sq (x0 : FVec Ideal S4096x256 .f32) (p : Fin 4096) :
    k0_pay1 (F := Ideal) x0 (ix2 p (1 : Fin 2)) = ∑ k : Fin 256, x0 (ix2 p k) * x0 (ix2 p k) := by
  unfold k0_pay1
  refine (concatenate_pair_apply_right (s₁ := S4096x1) (s₂ := S4096x1) (1 : Fin S4096x2.rank) _ _ _ (ix2 p (1 : Fin 2)) rfl rfl (ix2 p (0 : Fin 1))
    (fun b hb => by match b, hb with | ⟨0, _⟩, _ => rfl | ⟨1, _⟩, hb => exact absurd rfl hb) rfl).trans ?_
  rw [shapeCast_a_a1_apply]
  exact laneSum_apply _ _ _ _ p

/-! ## From the blocks to the array -/

variable (V : (c : Dev nD) → (b : Ref sig .tc) → Buf (Elt Ideal) ((c : Thread nD τ).loc b))

/-- The matrix as the launch finds it. -/
abbrev xarr (c : Dev nD) : S262144x256.Idx → EReal := V c main_arg0
/-- The launch's result array once every grid point has written its block back. -/
abbrev stats (c : Dev nD) : S262144x2.Idx → EReal := (dat0 V c).arrAt 1 cfg0.N

/-- What the launch computes from a matrix `X`: at `(r, 0)` the sum of row `r`, at `(r, 1)` the sum of its squares. -/
def rowStats (X : S262144x256.Idx → EReal) : S262144x2.Idx → EReal := fun j =>
  if (j 1).val = 0 then ∑ k : Fin 256, X (ix2 (⟨(j 0).val, idx2_lt0 j⟩ : Fin 262144) k)
  else ∑ k : Fin 256, X (ix2 (⟨(j 0).val, idx2_lt0 j⟩ : Fin 262144) k) * X (ix2 (⟨(j 0).val, idx2_lt0 j⟩ : Fin 262144) k)

/-- `rowStats` at column 0 of row `i`: the row's sum. -/
theorem rowStats_sum (X : S262144x256.Idx → EReal) (i : Fin 262144) :
    rowStats X (ix2 i (0 : Fin 2)) = ∑ k : Fin 256, X (ix2 i k) := rfl

/-- `rowStats` at column 1 of row `i`: the sum of the row's squares. -/
theorem rowStats_sq (X : S262144x256.Idx → EReal) (i : Fin 262144) :
    rowStats X (ix2 i (1 : Fin 2)) = ∑ k : Fin 256, X (ix2 i k) * X (ix2 i k) := rfl

/-- The body's value on a block `x0` that holds rows `4096 b … 4096 b + 4095` of `X` is the same rows of `rowStats X`. -/
theorem pay_eq_rowStats (X : S262144x256.Idx → EReal) (x0 : FVec Ideal S4096x256 .f32) (b : ℕ)
    (hx : ∀ (p : Fin 4096) (k : Fin 256) (r : Fin 262144), r.val = b * 4096 + p.val → x0 (ix2 p k) = X (ix2 r k))
    (j : S4096x2.Idx) (i : S262144x2.Idx) (hi0 : (i 0).val = b * 4096 + (j 0).val) (hi1 : (i 1).val = (j 1).val) :
    k0_pay1 (F := Ideal) x0 j = rowStats X i := by
  obtain ⟨p, q, rfl⟩ : ∃ (p : Fin 4096) (q : Fin 2), j = ix2 p q := ⟨j 0, j 1, eq_ix2 j⟩
  have hp : (i 0).val = b * 4096 + p.val := hi0
  have hq : (i 1).val = q.val := hi1
  unfold rowStats
  match q, hq with
  | ⟨0, _⟩, hq =>
    rw [if_pos hq]
    refine (pay_sum x0 p).trans (Finset.sum_congr rfl fun k _ => hx p k _ hp)
  | ⟨1, _⟩, hq =>
    rw [if_neg (fun h => absurd (hq.symm.trans h) Nat.one_ne_zero)]
    refine (pay_sq x0 p).trans (Finset.sum_congr rfl fun k _ => ?_)
    rw [hx p k ⟨(i 0).val, idx2_lt0 i⟩ hp]

/-- The offsets of a whole-buffer access are zero on both axes. -/
theorem zero_offsets : (![0, 0] : Fin 2 → Nat) = fun _ => 0 := funext fun a => by fin_cases a <;> rfl

/-- The printed index maps, decided over the grid: point `t` reads block `(t, 0)` of the matrix and writes block
    `(t, 0)` of the result. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` holds rows `4096 t … 4096 t + 4095` of the matrix. -/
theorem inBlock_apply (c : Dev nD) (t : Fin cfg0.N) (p : Fin 4096) (k : Fin 256) (r : Fin 262144)
    (hr : r.val = t.val * 4096 + p.val) :
    (iblk0 V c 0 t : FVec Ideal S4096x256 .f32) (ix2 p k) = xarr V c (ix2 r k) := by
  obtain ⟨e0, e1, -, -⟩ := block_index t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- What point `t` writes back is block `t` of `rowStats` of the matrix. -/
theorem flushed_eq (c : Dev nD) (t : Fin cfg0.N) :
    (dat0 V c).flushed 1 t = ((cfg0.win 1).blk t).view.read (Elt Ideal) (rowStats (xarr V c)) := by
  show (cfg0.win 1).cut (grid0.coords t) ((dat0 V c).after 1 t) = _
  rw [after0_1]
  unfold out0_1
  rw [View.canon_unit_zero zero_offsets]
  simp only [View.ld_unit_zero (S := S4096x256) zero_offsets]
  obtain ⟨-, -, e2, e3⟩ := block_index t
  funext j
  refine pay_eq_rowStats (xarr V c) (iblk0 V c 0 t) t.val (fun p k r hr => inBlock_apply V c t p k r hr) j
    (((cfg0.win 1).blk t).view.emb j) ?_ ?_
  · show win0_1.index t (0 : Fin 2) * 4096 + 1 * (j 0).val = t.val * 4096 + (j 0).val; omega
  · show win0_1.index t (1 : Fin 2) * 2 + 1 * (j 1).val = (j 1).val; omega

/-- An index of the result is in point `t`'s block iff each coordinate is in the block's range on its axis. -/
theorem mem_block (t : Fin cfg0.N) (i : S262144x2.Idx) :
    i ∈ ((cfg0.win 1).blk t).view.set ↔ ∀ a : Fin 2, win0_1.index t a * S4096x2.size a ≤ (i a).val ∧ (i a).val < win0_1.index t a * S4096x2.size a + S4096x2.size a := by
  show i ∈ ((View.whole main_v0).slice (win0_1.rect t)).set ↔ _
  rw [View.set_slice_whole, Rect.mem_set_unit]
  exact Iff.rfl

/-- Row `r` of the result is in the block of point `r / 4096`. -/
theorem covered (i : S262144x2.Idx) :
    ∃ t : Fin cfg0.N, (cfg0.win 1).flush t = true ∧ i ∈ ((cfg0.win 1).blk t).view.set := by
  have hi0 : (i 0).val < 262144 := idx2_lt0 i
  have hi1 : (i 1).val < 2 := idx2_lt1 i
  have hN : cfg0.N = 64 := N_0
  let t : Fin cfg0.N := ⟨(i 0).val / 4096, by rw [hN]; omega⟩
  obtain ⟨-, -, e2, e3⟩ := block_index t
  have ht : t.val = (i 0).val / 4096 := rfl
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 2 ≤ (i 1).val ∧ (i 1).val < win0_1.index t (1 : Fin 2) * 2 + 2; omega

/-- The result array after the launch is `rowStats` of the matrix it found. -/
theorem stats_eq (c : Dev nD) : stats V c = rowStats (xarr V c) :=
  (dat0 V c).arrAt_eq_of_cover 1 (rowStats (xarr V c)) (fun t _ => flushed_eq V c t) covered

/-- Column 0 of the result: the row sums. -/
theorem stats_sum (c : Dev nD) (i : Fin 262144) :
    stats V c (ix2 i (0 : Fin 2)) = ∑ k : Fin 256, xarr V c (ix2 i k) :=
  (congrFun (stats_eq V c) (ix2 i (0 : Fin 2))).trans (rowStats_sum _ i)

/-- Column 1 of the result: the row sums of squares. -/
theorem stats_sq (c : Dev nD) (i : Fin 262144) :
    stats V c (ix2 i (1 : Fin 2)) = ∑ k : Fin 256, xarr V c (ix2 i k) * xarr V c (ix2 i k) :=
  (congrFun (stats_eq V c) (ix2 i (1 : Fin 2))).trans (rowStats_sq _ i)

end Cert.KernelIdeal.Stats

end
-- ==== Proof.KernelNorm.lean ====
/-
  The second launch, at any contents `V` of the buffers it is entered from: entry `(i, k)` of its result is the
  matrix entry less row `i`'s mean, times row `i`'s reciprocal deviation, times the scale of column `k`, plus the
  shift of column `k`.
-/
import proofs.«139286_j40578851012881_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Norm

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The matrix as the launch finds it. -/
abbrev xarr (c : Dev nD) : S262144x256.Idx → EReal := V c main_arg0
/-- The per-row mean column as the launch finds it. -/
abbrev mcol (c : Dev nD) : S262144x1.Idx → EReal := V c main_v34
/-- The per-row reciprocal-deviation column as the launch finds it. -/
abbrev icol (c : Dev nD) : S262144x1.Idx → EReal := V c main_v42
/-- The scale as the launch finds it. -/
abbrev warr (c : Dev nD) : S256.Idx → EReal := V c main_arg2
/-- The shift as the launch finds it. -/
abbrev barr (c : Dev nD) : S256.Idx → EReal := V c main_arg3
/-- The launch's result array once every grid point has written its block back. -/
abbrev outarr (c : Dev nD) : S262144x256.Idx → EReal := (dat1 V c).arrAt 5 cfg1.N

/-- A column `[a, 1]` broadcast over `b` columns reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry `(p, q)` of a block. -/
theorem pay_apply (x0 : FVec Ideal S4096x256 .f32) (x1 x2 : FVec Ideal S4096x1 .f32) (x3 x4 : FVec Ideal S256 .f32)
    (p : Fin 4096) (q : Fin 256) :
    k1_pay1 (F := Ideal) x0 x1 x2 x3 x4 (ix2 p q)
      = ((x0 (ix2 p q) - x1 (ix2 p (0 : Fin 1))) * x2 (ix2 p (0 : Fin 1))) * x3 (ix1 q) + x4 (ix1 q) := by
  unfold k1_pay1
  simp only [addf_apply, mulf_apply, subf_apply, shapeCast_self]
  rw [broadcastTo_a1_ab_apply, broadcastTo_a1_ab_apply, broadcastTo_1b_ab_apply, broadcastTo_1b_ab_apply,
    shapeCast_a_1a_apply, shapeCast_a_1a_apply]

/-- What the result array is to hold: entry `(i, k)` is the matrix entry less row `i`'s mean, times row `i`'s
    reciprocal deviation, times the scale of column `k`, plus the shift of column `k`. -/
abbrev normed (c : Dev nD) : S262144x256.Idx → EReal := fun j =>
  ((xarr V c j - mcol V c (ix2 (⟨(j 0).val, idx2_lt0 j⟩ : Fin 262144) (0 : Fin 1)))
      * icol V c (ix2 (⟨(j 0).val, idx2_lt0 j⟩ : Fin 262144) (0 : Fin 1)))
    * warr V c (ix1 (⟨(j 1).val, idx2_lt1 j⟩ : Fin 256)) + barr V c (ix1 (⟨(j 1).val, idx2_lt1 j⟩ : Fin 256))

/-- The zero offsets of a whole-block access, as a function (two axes, one axis). -/
theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: at point `t` the three row-blocked inputs and the result sit at
    block `(t, 0)`, the scale and the shift at block `0`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- The body's arithmetic at an entry `y` of a block, the row and the column of `y` written out. -/
theorem pay_at (x0 : FVec Ideal S4096x256 .f32) (x1 x2 : FVec Ideal S4096x1 .f32) (x3 x4 : FVec Ideal S256 .f32)
    (y : S4096x256.Idx) :
    k1_pay1 (F := Ideal) x0 x1 x2 x3 x4 y
      = ((x0 y - x1 (ix2 (⟨(y 0).val, idx2_lt0 y⟩ : Fin 4096) (0 : Fin 1)))
            * x2 (ix2 (⟨(y 0).val, idx2_lt0 y⟩ : Fin 4096) (0 : Fin 1)))
          * x3 (ix1 (⟨(y 1).val, idx2_lt1 y⟩ : Fin 256)) + x4 (ix1 (⟨(y 1).val, idx2_lt1 y⟩ : Fin 256)) := by
  obtain ⟨p, q, rfl⟩ : ∃ (p : Fin 4096) (q : Fin 256), y = ix2 p q := ⟨y 0, y 1, eq_ix2 y⟩
  exact pay_apply x0 x1 x2 x3 x4 p q

/-- Entry `y` of the matrix's block at point `t` is the matrix's entry in row `4096 t + y₀`, column `y₁`. -/
theorem xblk_apply (c : Dev nD) (t : Fin cfg1.N) (y : S4096x256.Idx) (i : S262144x256.Idx)
    (h0 : (i 0).val = t.val * 4096 + (y 0).val) (h1 : (i 1).val = (y 1).val) :
    (iblk1 V c 0 t : Vec Ideal S4096x256 .f32) y = xarr V c i := by
  obtain ⟨e0, e1, -⟩ := index_facts t
  unfold iblk1
  rw [View.read_apply]
  show V c main_arg0 _ = V c main_arg0 i
  congr 1
  funext a
  apply Fin.ext
  match a with
  | ⟨0, _⟩ => show win1_0.index t (0 : Fin 2) * 4096 + 1 * (y 0).val = (i 0).val; rw [e0, h0]; omega
  | ⟨1, _⟩ => show win1_0.index t (1 : Fin 2) * 256 + 1 * (y 1).val = (i 1).val; rw [e1, h1]; omega

/-- Entry `y` of the mean column's block at point `t` is the column's entry in row `4096 t + y₀`. -/
theorem mblk_apply (c : Dev nD) (t : Fin cfg1.N) (y : S4096x1.Idx) (i : S262144x1.Idx)
    (h0 : (i 0).val = t.val * 4096 + (y 0).val) :
    (iblk1 V c 1 t : Vec Ideal S4096x1 .f32) y = mcol V c i := by
  obtain ⟨-, -, e0, e1, -⟩ := index_facts t
  unfold iblk1
  rw [View.read_apply]
  show V c main_v34 _ = V c main_v34 i
  congr 1
  funext a
  apply Fin.ext
  match a with
  | ⟨0, _⟩ => show win1_1.index t (0 : Fin 2) * 4096 + 1 * (y 0).val = (i 0).val; rw [e0, h0]; omega
  | ⟨1, _⟩ =>
    show win1_1.index t (1 : Fin 2) * 1 + 1 * (y 1).val = (i 1).val
    have hy : (y 1).val < 1 := (y 1).isLt
    have hi : (i 1).val < 1 := (i 1).isLt
    rw [e1]; omega

/-- Entry `y` of the reciprocal-deviation column's block at point `t` is the column's entry in row `4096 t + y₀`. -/
theorem rblk_apply (c : Dev nD) (t : Fin cfg1.N) (y : S4096x1.Idx) (i : S262144x1.Idx)
    (h0 : (i 0).val = t.val * 4096 + (y 0).val) :
    (iblk1 V c 2 t : Vec Ideal S4096x1 .f32) y = icol V c i := by
  obtain ⟨-, -, -, -, e0, e1, -⟩ := index_facts t
  unfold iblk1
  rw [View.read_apply]
  show V c main_v42 _ = V c main_v42 i
  congr 1
  funext a
  apply Fin.ext
  match a with
  | ⟨0, _⟩ => show win1_2.index t (0 : Fin 2) * 4096 + 1 * (y 0).val = (i 0).val; rw [e0, h0]; omega
  | ⟨1, _⟩ =>
    show win1_2.index t (1 : Fin 2) * 1 + 1 * (y 1).val = (i 1).val
    have hy : (y 1).val < 1 := (y 1).isLt
    have hi : (i 1).val < 1 := (i 1).isLt
    rw [e1]; omega

/-- The scale's block is the whole scale at every point. -/
theorem wblk_apply (c : Dev nD) (t : Fin cfg1.N) (y : S256.Idx) :
    (iblk1 V c 3 t : Vec Ideal S256 .f32) y = warr V c y := by
  obtain ⟨-, -, -, -, -, -, e0, -⟩ := index_facts t
  unfold iblk1
  rw [View.read_apply]
  show V c main_arg2 _ = V c main_arg2 y
  congr 1
  funext a
  apply Fin.ext
  match a with
  | ⟨0, _⟩ => show win1_3.index t (0 : Fin 1) * 256 + 1 * (y 0).val = (y 0).val; rw [e0]; omega

/-- The shift's block is the whole shift at every point. -/
theorem bblk_apply (c : Dev nD) (t : Fin cfg1.N) (y : S256.Idx) :
    (iblk1 V c 4 t : Vec Ideal S256 .f32) y = barr V c y := by
  obtain ⟨-, -, -, -, -, -, -, e0, -⟩ := index_facts t
  unfold iblk1
  rw [View.read_apply]
  show V c main_arg3 _ = V c main_arg3 y
  congr 1
  funext a
  apply Fin.ext
  match a with
  | ⟨0, _⟩ => show win1_4.index t (0 : Fin 1) * 256 + 1 * (y 0).val = (y 0).val; rw [e0]; omega

/-- What the body leaves at entry `y` of the result's block at point `t` is `normed` at row `4096 t + y₀`, column `y₁`. -/
theorem block_entry (c : Dev nD) (t : Fin cfg1.N) (y : S4096x256.Idx) (i : S262144x256.Idx)
    (h0 : (i 0).val = t.val * 4096 + (y 0).val) (h1 : (i 1).val = (y 1).val) :
    k1_pay1 (F := Ideal) (iblk1 V c 0 t) (iblk1 V c 1 t) (iblk1 V c 2 t) (iblk1 V c 3 t) (iblk1 V c 4 t) y
      = normed V c i := by
  refine (pay_at _ _ _ _ _ y).trans ?_
  have ex := xblk_apply V c t y i h0 h1
  have em := mblk_apply V c t (ix2 (⟨(y 0).val, idx2_lt0 y⟩ : Fin 4096) (0 : Fin 1))
    (ix2 (⟨(i 0).val, idx2_lt0 i⟩ : Fin 262144) (0 : Fin 1)) h0
  have ei := rblk_apply V c t (ix2 (⟨(y 0).val, idx2_lt0 y⟩ : Fin 4096) (0 : Fin 1))
    (ix2 (⟨(i 0).val, idx2_lt0 i⟩ : Fin 262144) (0 : Fin 1)) h0
  have ew := wblk_apply V c t (ix1 (⟨(y 1).val, idx2_lt1 y⟩ : Fin 256))
  have eb := bblk_apply V c t (ix1 (⟨(y 1).val, idx2_lt1 y⟩ : Fin 256))
  have hk : (⟨(y 1).val, idx2_lt1 y⟩ : Fin 256) = ⟨(i 1).val, idx2_lt1 i⟩ := Fin.ext h1.symm
  rw [ex, em, ei, ew, eb, hk]

/-- What point `t` writes back is block `t` of `normed`. -/
theorem flushed_eq (c : Dev nD) (t : Fin cfg1.N) :
    (dat1 V c).flushed 5 t = ((cfg1.win 5).blk t).view.read (Elt Ideal) (normed V c) := by
  show (cfg1.win 5).cut (grid1.coords t) ((dat1 V c).after 5 t) = _
  rw [after1_5]
  unfold out1_5
  rw [View.canon_unit_zero zeros2]
  simp only [View.ld_unit_zero (S := S4096x256) zeros2, View.ld_unit_zero (S := S4096x1) zeros2, View.ld_unit_zero (S := S256) zeros1]
  funext j
  obtain ⟨-, -, -, -, -, -, -, -, e0, e1⟩ := index_facts t
  rw [View.read_apply]
  refine block_entry V c t ((win1 5).xinj (grid1.coords t) j) (((cfg1.win 5).blk t).view.emb j) ?_ ?_
  · show win1_5.index t (0 : Fin 2) * 4096 + 1 * (j 0).val = t.val * 4096 + (j 0).val
    rw [e0]; omega
  · show win1_5.index t (1 : Fin 2) * 256 + 1 * (j 1).val = (j 1).val
    rw [e1]; omega

/-- An index of the result array is in point `t`'s block iff each coordinate is in the block's range on its axis. -/
theorem mem_blk (t : Fin cfg1.N) (i : S262144x256.Idx) :
    i ∈ ((cfg1.win 5).blk t).view.set ↔ ∀ a : Fin 2, win1_5.index t a * S4096x256.size a ≤ (i a).val
      ∧ (i a).val < win1_5.index t a * S4096x256.size a + S4096x256.size a := by
  show i ∈ ((View.whole main_v43).slice (win1_5.rect t)).set ↔ _
  rw [View.set_slice_whole, Rect.mem_set_unit]
  exact Iff.rfl

/-- The blocks cover the result array: row `r` lies in the block of point `r / 4096`, which is written back. -/
theorem covered (i : S262144x256.Idx) :
    ∃ t : Fin cfg1.N, (cfg1.win 5).flush t = true ∧ i ∈ ((cfg1.win 5).blk t).view.set := by
  have hi0 : (i 0).val < 262144 := (i 0).isLt
  have hi1 : (i 1).val < 256 := (i 1).isLt
  have hN : cfg1.N = 64 := N_1
  obtain ⟨t, ht⟩ : ∃ t : Fin cfg1.N, t.val = (i 0).val / 4096 := ⟨⟨(i 0).val / 4096, by rw [hN]; omega⟩, rfl⟩
  obtain ⟨-, -, -, -, -, -, -, -, e0, e1⟩ := index_facts t
  refine ⟨t, flush1_5 t, ?_⟩
  rw [mem_blk]
  intro a
  match a with
  | ⟨0, _⟩ =>
    show win1_5.index t (0 : Fin 2) * 4096 ≤ (i 0).val ∧ (i 0).val < win1_5.index t (0 : Fin 2) * 4096 + 4096
    rw [e0, ht]; omega
  | ⟨1, _⟩ =>
    show win1_5.index t (1 : Fin 2) * 256 ≤ (i 1).val ∧ (i 1).val < win1_5.index t (1 : Fin 2) * 256 + 256
    rw [e1]; omega

/-- So the result array ends holding `normed`. -/
theorem out_eq (c : Dev nD) : outarr V c = normed V c :=
  (dat1 V c).arrAt_eq_of_cover 5 (normed V c) (fun t _ => flushed_eq V c t) covered

/-- The result of the second launch, entry by entry. -/
theorem out_apply (c : Dev nD) (i : Fin 262144) (k : Fin 256) :
    outarr V c (ix2 i k)
      = ((xarr V c (ix2 i k) - mcol V c (ix2 i (0 : Fin 1))) * icol V c (ix2 i (0 : Fin 1)))
          * warr V c (ix1 k) + barr V c (ix1 k) :=
  congrFun (out_eq V c) (ix2 i k)

end Cert.KernelIdeal.Norm

end
-- ==== Proof.Spec.lean ====
/-
  The two computations of the per-graph normalisation, as plain functions of the inputs read by coordinates.

  Inputs: a matrix `x` of 262144 rows and 256 columns, a segment id `bt i` per row (a 32-bit word, read signed),
  and a gather row `g i` per row (the table row the id selects once it is wrapped and clamped; the only thing
  the equality needs of it is `g i = s` whenever row `i`'s id IS the segment `s`).

  A segment `s` (of 1024) collects the rows whose id, read signed, equals `s`; rows whose id is no segment are
  collected nowhere. `deg s` counts the rows of segment `s`, `nrm s = max 1 (deg s) · 256` is the number of matrix
  entries of the segment (or 256 for an empty one).

  * One side sums each row first (`rsum`, `rsq`), adds the row sums per segment (`segS`, `segQ`), takes
    `meanK = segS / nrm`, `varK = segQ / nrm − meanK²`, `invK = 1 / (√varK + ε)` and normalises
    `(x − meanK) · invK`.
  * The other side adds the rows per segment column by column and then sums the columns (`meanR`), centres the matrix
    (`cenR`), takes the mean of the squared centred entries per segment (`varR`) and normalises
    `cenR / (√varR + ε)`.
-/
import Idealize.ShloMosaic.PureOps.Ideal

noncomputable section

open scoped BigOperators

namespace Cert.GraphNorm

open Idealize.ShloMosaic

/-- Row `i` belongs to segment `s`: its id, read signed, is `s`. -/
abbrev hit (bt : Fin 262144 → BitVec 32) (i : Fin 262144) (s : Fin 1024) : Prop := (bt i).toInt = (s.val : Int)

/-- The small positive number added to the standard deviation, as the extended real its pattern denotes. -/
def eps : EReal := Ideal.ofBits .f32 0x3727C5AC#32

section
variable (x : Fin 262144 → Fin 256 → EReal) (bt : Fin 262144 → BitVec 32) (g : Fin 262144 → Fin 1024)

/-- The number of rows of segment `s`. -/
def deg (s : Fin 1024) : EReal := ∑ i : Fin 262144, if hit bt i s then (1 : EReal) else 0
/-- The number of matrix entries of segment `s`, an empty segment counted as one row. -/
def nrm (s : Fin 1024) : EReal := max 1 (deg bt s) * 256

/-! ### Rows first -/

/-- The sum of row `i`. -/
def rsum (i : Fin 262144) : EReal := ∑ k : Fin 256, x i k
/-- The sum of the squares of row `i`. -/
def rsq (i : Fin 262144) : EReal := ∑ k : Fin 256, x i k * x i k
/-- The sum of the entries of segment `s`, row sums added. -/
def segS (s : Fin 1024) : EReal := ∑ i : Fin 262144, if hit bt i s then rsum x i else 0
/-- The sum of the squared entries of segment `s`, row sums added. -/
def segQ (s : Fin 1024) : EReal := ∑ i : Fin 262144, if hit bt i s then rsq x i else 0
/-- The mean of segment `s`. -/
def meanK (s : Fin 1024) : EReal := Ideal.div (segS x bt s) (nrm bt s)
/-- The variance of segment `s` as the mean of the squares less the squared mean. -/
def varK (s : Fin 1024) : EReal := Ideal.div (segQ x bt s) (nrm bt s) - meanK x bt s * meanK x bt s
/-- The reciprocal of the standard deviation plus ε. -/
def invK (s : Fin 1024) : EReal := Ideal.div 1 (Ideal.sqrt (varK x bt s) + eps)
/-- The normalised entry: centred, times the reciprocal. -/
def normK (i : Fin 262144) (k : Fin 256) : EReal := (x i k - meanK x bt (g i)) * invK x bt (g i)

/-! ### Columns first -/

/-- The mean of segment `s`, the rows added column by column and the columns summed. -/
def meanR (s : Fin 1024) : EReal :=
  Ideal.div (∑ k : Fin 256, ∑ i : Fin 262144, if hit bt i s then x i k else 0) (nrm bt s)
/-- The centred entry. -/
def cenR (i : Fin 262144) (k : Fin 256) : EReal := x i k - meanR x bt (g i)
/-- The variance of segment `s` as the mean of the squared centred entries. -/
def varR (s : Fin 1024) : EReal :=
  Ideal.div (∑ k : Fin 256, ∑ i : Fin 262144, if hit bt i s then cenR x bt g i k * cenR x bt g i k else 0) (nrm bt s)
/-- The normalised entry: centred, divided by the standard deviation plus ε. -/
def normR (i : Fin 262144) (k : Fin 256) : EReal :=
  Ideal.div (cenR x bt g i k) (Ideal.sqrt (varR x bt g (g i)) + eps)

end

/-- The table row a segment id selects in a gather: a negative id is wrapped by 1024 first, and the result, read signed,
    is clamped into `[0, 1023]`. -/
def grow (bt : Fin 262144 → BitVec 32) (i : Fin 262144) : Fin 1024 :=
  ⟨min (Scalar.select (IntOp.cmpi .slt (bt i) 0#32) (IntOp.addi (bt i) 1024#32) (bt i)).toInt.toNat (1024 - 1), by omega⟩

end Cert.GraphNorm

end
-- ==== Proof.KernelArgs.lean ====
/-
  The kernel program's argument arrays at launch, read by coordinates: the matrix, the segment ids, the scale and the
  shift.
-/
import proofs.«139286_j40578851012881_1_alg».proof.Proof.Gen.KernelIdeal.Frame
import proofs.«139286_j40578851012881_1_alg».proof.Proof.Spec
import Idealize.ShloMosaic.Lib.ValueIdx

noncomputable section

namespace Cert.KernelIdeal.Args

open Idealize.ShloMosaic Idealize.ShloMosaic.TcCoe Idealize.SL.Sem Idealize.ShloMosaic.ValueIdx Cert.KernelIdeal

variable (m : (ℓ : Loc nD τ sig) → Buf (Elt Ideal) ℓ)

/-- The matrix at launch, by row and column. -/
abbrev X (c : Dev nD) : Fin 262144 → Fin 256 → EReal := fun i k => m ((c.tc : Thread nD τ).loc main_arg0) (ix2 i k)
/-- The segment ids at launch, by row. -/
abbrev Bt (c : Dev nD) : Fin 262144 → BitVec 32 := fun i => m ((c.tc : Thread nD τ).loc main_arg1) (ix1 i)
/-- The scale at launch, by column. -/
abbrev Wt (c : Dev nD) : Fin 256 → EReal := fun k => m ((c.tc : Thread nD τ).loc main_arg2) (ix1 k)
/-- The shift at launch, by column. -/
abbrev Bs (c : Dev nD) : Fin 256 → EReal := fun k => m ((c.tc : Thread nD τ).loc main_arg3) (ix1 k)

end Cert.KernelIdeal.Args

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibVecDims.lean ====
/-
  Dimension numbers of a FLAT table over symbolic extents, each read in coordinates:
  * a gather — `x[idx]` of a table `[N]` at start indices `[R, 1]` — reads the table at `idx r`, the start index
    taken signed and clamped into `[0, N − 1]`;
  * a scatter-add into a table `[N]` adds update `r` at position `idx r` of the table when that position exists (the
    start index taken signed, not clamped) and nowhere otherwise, so entry `a` of the result is the table's entry
    plus the sum of the updates `r` with `idx r = a`.
-/
import proofs.«139286_j40578851012881_1_alg».proof.Proof.LibRowDims
import Idealize.ShloMosaic.Lib.ValueIdxRank1

noncomputable section

open scoped BigOperators

namespace Idealize.ShloMosaic.VecDims

open Idealize.ShloMosaic Idealize.ShloMosaic.ValueIdx

/-! ## A flat gather -/

/-- The dimension numbers of `x[idx]` for a table `[N]`, start indices `[R, 1]` and result `[R]`. -/
abbrev vecGather (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The result entry `r` reads its one start-index component at `(r, 0)` of the start indices. -/
theorem vecGather_siIdx {N R : Nat}
    (wf : GatherDims.WF ⟨1, ![N]⟩ ⟨2, ![R, 1]⟩ ⟨1, ![R]⟩ [] [0] [] [0] [] 1 ![1]) (r : Fin R) :
    (vecGather N R wf).siIdx (ix1 r) ⟨List.idxOf (0 : Fin 1) (vecGather N R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's one axis (collapsed, named by the start index map) the operand index is the clamped start alone:
    no batching coordinate, no offset coordinate, and the slice size `1` leaves the clamp's upper bound `N − 1`. -/
theorem vecGather_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (r : Fin R) :
    ((vecGather N R wf).operandIdx (ix1 r) idx 0).val = (RowDims.clampRow N hN (idx (ix2 r 0))).val := by
  show (vecGather N R wf).start (ix1 r) idx 0 + (vecGather N R wf).batchCoord (ix1 r) 0
    + (vecGather N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N R wf).startIndexMap from List.mem_singleton.mpr rfl)]
  rw [vecGather_siIdx wf r]
  rfl

/-- The gather read at `r`: the table at `clampRow (idx (r, 0))`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r) = x (ix1 (RowDims.clampRow N hN (idx (ix2 r 0)))) := by
  unfold Host.gather
  congr 1
  funext a
  refine Fin.ext ?_
  match a with
  | ⟨0, _⟩ => exact vecGather_operandIdx hN wf idx r

/-! ## A flat scatter-add -/

/-- The dimension numbers of `x.at[idx].add(u)` for a table `[N]`, scatter indices `[R, 1]` and updates `[R]`. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The update entry `r` reads its one start-index component at `(r, 0)` of the scatter indices. -/
theorem vecScatter_siIdx {N R : Nat} (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's one axis the window starts at the scatter index of the update, read signed. -/
theorem vecScatter_start {N R w : Nat} (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The table's one axis is an inserted axis: its window coordinate is `0`. -/
theorem vecScatter_window {N R : Nat} (wf : ScatterDims.WF ⟨1, ![N]⟩ ⟨2, ![R, 1]⟩ ⟨1, ![R]⟩ [] [0] [0] 1) (r : Fin R) :
    (vecScatter N R wf).window (ix1 r) 0 = 0 := rfl

/-- Update `r` lands on table entry `a` exactly when its start index, read signed, is `a`. -/
theorem vecScatter_resultIdx?_eq_some_iff {N R w : Nat} (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs := vecScatter_start wf idx r
  have hw := vecScatter_window wf r
  unfold ScatterDims.resultIdx?
  constructor
  · -- landed at `a`: the window is inside the table, and its one coordinate is `a`
    intro h
    split at h
    · rename_i hin
      have hf := Option.some.inj h
      have e0 := congrArg (fun f => (f 0).val) hf
      simp only [hs, hw] at e0
      have h0 := hin 0
      rw [hs, hw] at h0
      have ea : ((ix1 a : (⟨1, ![N]⟩ : Shape).Idx) 0).val = a.val := rfl
      rw [ea] at e0
      omega
    · exact absurd h (by simp)
  · -- the start index is a position of the table: the window is inside, at `a`
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs, hw, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs, hw, hv]; omega

/-- The accumulated table at `a`: the table's entry plus the updates `r` whose start index is `a`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  -- the sum over the updates that land on `a`, as a sum over their one coordinate
  rw [Finset.sum_filter, ← Equiv.sum_comp (idxEquiv1 (n := R)).symm]
  refine Finset.sum_congr rfl fun r _ => ?_
  -- update `r` contributes when its start index is `a`, and nothing otherwise
  show (if (vecScatter N R wf).resultIdx? (ix1 r) idx = some (ix1 a) then upd (ix1 r) else 0) = _
  simp only [vecScatter_resultIdx?_eq_some_iff]

end Idealize.ShloMosaic.VecDims

end
-- ==== Proof.KernelHost.lean ====
/-
  The host operations between the two launches: from the first launch's result (row sums and row sums of squares,
  given here as hypotheses `h0`, `h1` on the contents after the first launch) to the two per-row columns the second
  launch reads — row `i`'s mean and reciprocal deviation, gathered at the row's table row.

  The road: the operations' composed term, as named functions of the two arrays they read (the first launch's result and
  the segment ids); each function read at an index, one operation at a time (a slice, a flattening, a broadcast, the
  scatter-add as a sum over the rows of a segment, the gather at the clamped start index, the pointwise arithmetic);
  the literals `0`, `1`, `256` as the reals they denote.
-/
import proofs.«139286_j40578851012881_1_alg».proof.Proof.KernelArgs
import proofs.«139286_j40578851012881_1_alg».proof.Proof.LibVecDims
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

open scoped BigOperators

namespace Cert.KernelIdeal.HostValue

open Idealize.ShloMosaic Idealize.ShloMosaic.TcCoe Idealize.SL.Sem Idealize.ShloMosaic.ValueIdx
open Cert.KernelIdeal Cert.KernelIdeal.Gen Cert.KernelIdeal.Args

/-! ## The host operations as functions of the two arrays they read -/

section Terms

variable (a0 : FVec Ideal S262144x2 .f32) (b : IVec S262144 32)

/-- Column 0 of the first launch's result, flattened: the row sums. -/
def rowS : FVec Ideal S262144 .f32 :=
  shapeCast S262144 (extractStridedSlice S262144x1 ![0, 0] a0 slices_S262144x2_S262144x1_0_0) shapeCasts_S262144x1_S262144
/-- Column 1 of the first launch's result, flattened: the row sums of squares. -/
def rowQ : FVec Ideal S262144 .f32 :=
  shapeCast S262144 (extractStridedSlice S262144x1 ![0, 1] a0 slices_S262144x2_S262144x1_0_1) shapeCasts_S262144x1_S262144
/-- The zero table. -/
def zeroT : FVec Ideal S1024 .f32 :=
  broadcastInDim S1024 ![] bcast_S_S1024 (constant (F := Ideal) S_ .f32 0x00000000#32)
/-- The ids as a column of start indices. -/
def idCol : IVec S262144x1 32 :=
  broadcastInDim S262144x1 ![0] bcast_S262144_S262144x1_0 b
/-- The segment sizes: a one scattered per row. -/
def degT : FVec Ideal S1024 .f32 :=
  Host.scatterAdd (F := Ideal) scatter_S1024_S262144x1_S262144_n_0_0_1 zeroT (idCol b)
    (broadcastInDim S262144 ![] bcast_S_S262144 (constant (F := Ideal) S_ .f32 0x3F800000#32))
/-- The sizes, at least one. -/
def clipT : FVec Ideal S1024 .f32 :=
  maximumf (broadcastInDim S1024 ![] bcast_S_S1024 (id (constant (F := Ideal) S_ .f32 0x3F800000#32))) (degT b)
/-- The number of entries per segment. -/
def nrmT : FVec Ideal S1024 .f32 :=
  mulf (clipT b) (broadcastInDim S1024 ![] bcast_S_S1024 (constant (F := Ideal) S_ .f32 0x43800000#32))
/-- The segment sums. -/
def sumT : FVec Ideal S1024 .f32 :=
  Host.scatterAdd (F := Ideal) scatter_S1024_S262144x1_S262144_n_0_0_1 zeroT (idCol b) (rowS a0)
/-- The segment sums of squares. -/
def sqT : FVec Ideal S1024 .f32 :=
  Host.scatterAdd (F := Ideal) scatter_S1024_S262144x1_S262144_n_0_0_1 zeroT (idCol b) (rowQ a0)
/-- The table of means. -/
def meanT : FVec Ideal S1024 .f32 :=
  Host.divf (F := Ideal) (sumT a0 b) (nrmT b)
/-- The table of reciprocal deviations. -/
def invT : FVec Ideal S1024 .f32 :=
  Host.divf (F := Ideal) (broadcastInDim S1024 ![] bcast_S_S1024 (constant (F := Ideal) S_ .f32 0x3F800000#32))
    (addf (Host.sqrt (F := Ideal) (subf (Host.divf (F := Ideal) (sqT a0 b) (nrmT b)) (mulf (meanT a0 b) (meanT a0 b))))
      (broadcastInDim S1024 ![] bcast_S_S1024 (constant (F := Ideal) S_ .f32 0x3727C5AC#32)))
/-- The gather's start indices: a negative id wrapped by 1024. -/
def wrapCol : IVec S262144x1 32 :=
  broadcastInDim S262144x1 ![0] bcast_S262144_S262144x1_0
    (select (cmpi .slt b (broadcastInDim S262144 ![] bcast_S_S262144 (constantI S_ 32 0#32)))
      (addi b (broadcastInDim S262144 ![] bcast_S_S262144 (constantI S_ 32 1024#32))) b)
/-- The mean column. -/
def meanCol : FVec Ideal S262144x1 .f32 :=
  shapeCast S262144x1 (Host.gather gather_S1024_S262144x1_S262144_n_0_n_n_0_1_1 (meanT a0 b) (wrapCol b)) shapeCasts_S262144_S262144x1
/-- The reciprocal-deviation column. -/
def invCol : FVec Ideal S262144x1 .f32 :=
  shapeCast S262144x1 (Host.gather gather_S1024_S262144x1_S262144_n_0_n_n_0_1_1 (invT a0 b) (wrapCol b)) shapeCasts_S262144_S262144x1

end Terms

/-! ## The buffers the second launch reads, as the composed term of what the host operations read -/

/-- The mean column after the host operations, from any contents. -/
theorem after_mean (Wa : Valuation τ sig (Elt Ideal)) :
    StableHlo.after hostOps1_2 (StableHlo.after hostOps1_1 (StableHlo.after hostOps1 Wa)) (Proc.devRef .tc main_v34)
      = meanCol (Wa (Proc.devRef .tc main_v0)) (Wa (Proc.devRef .tc main_arg1)) := by
  after_results_simp
  rfl

/-- The reciprocal-deviation column after the host operations, from any contents. -/
theorem after_inv (Wa : Valuation τ sig (Elt Ideal)) :
    StableHlo.after hostOps1_2 (StableHlo.after hostOps1_1 (StableHlo.after hostOps1 Wa)) (Proc.devRef .tc main_v42)
      = invCol (Wa (Proc.devRef .tc main_v0)) (Wa (Proc.devRef .tc main_arg1)) := by
  after_results_simp
  rfl

/-! ## The operations read at an index -/

section Reads

variable {α : Type}

/-- An `[a, 1]` array flattened to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A scalar broadcast to the table's shape reads the scalar everywhere. -/
theorem bcastT_apply (y : S_.Idx → α) (s : Fin 1024) : broadcastInDim S1024 ![] bcast_S_S1024 y (ix1 s) = y ix0 :=
  broadcastInDim_apply _ bcast_S_S1024 y (ix1 s) ix0 (fun a => a.elim0)

/-- A scalar broadcast to the rows' shape reads the scalar everywhere. -/
theorem bcastR_apply (y : S_.Idx → α) (r : Fin 262144) : broadcastInDim S262144 ![] bcast_S_S262144 y (ix1 r) = y ix0 :=
  broadcastInDim_apply _ bcast_S_S262144 y (ix1 r) ix0 (fun a => a.elim0)

/-- A vector broadcast to a column reads, at `(r, u)`, the vector at `r`. -/
theorem bcastCol_apply (y : S262144.Idx → α) (r : Fin 262144) (u : Fin 1) :
    broadcastInDim S262144x1 ![0] bcast_S262144_S262144x1_0 y (ix2 r u) = y (ix1 r) :=
  broadcastInDim_apply _ bcast_S262144_S262144x1_0 y (ix2 r u) (ix1 r) (fun a => match a with
    | ⟨0, _⟩ => by show r.val = if (262144 : Nat) = 1 then 0 else r.val; rw [if_neg (by decide)])

/-- The printed scatter's dimension numbers are the flat scatter's. -/
theorem scatter_eq : scatter_S1024_S262144x1_S262144_n_0_0_1
    = VecDims.vecScatter 1024 262144 scatter_S1024_S262144x1_S262144_n_0_0_1_wf := rfl

/-- The printed gather's dimension numbers are the flat gather's. -/
theorem gather_eq : gather_S1024_S262144x1_S262144_n_0_n_n_0_1_1
    = VecDims.vecGather 1024 262144 gather_S1024_S262144x1_S262144_n_0_n_n_0_1_1_wf := rfl

/-- The host's scatter-add at the ideal values is the plain sum of the updates that land. -/
theorem hostScatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The scatter-add into the table at `s`: the table's entry plus the updates of the rows whose start index is `s`. -/
theorem scatterT_apply (x : FVec Ideal S1024 .f32) (idx : IVec S262144x1 32) (upd : FVec Ideal S262144 .f32) (s : Fin 1024) :
    Host.scatterAdd (F := Ideal) scatter_S1024_S262144x1_S262144_n_0_0_1 x idx upd (ix1 s)
      = x (ix1 s) + ∑ r : Fin 262144, if (idx (ix2 r 0)).toInt = (s.val : Int) then upd (ix1 r) else 0 := by
  rw [hostScatterAdd_eq, scatter_eq]
  exact VecDims.vecScatterAdd_apply _ x idx upd s

/-- The gather from the table at row `r`: the table at the clamped start index. -/
theorem gatherT_apply (x : S1024.Idx → α) (idx : IVec S262144x1 32) (r : Fin 262144) :
    Host.gather gather_S1024_S262144x1_S262144_n_0_n_n_0_1_1 x idx (ix1 r)
      = x (ix1 (RowDims.clampRow 1024 (by decide) (idx (ix2 r 0)))) := by
  rw [gather_eq]
  exact VecDims.vecGather_apply _ _ x idx r

end Reads

/-! ## The literals -/

/-- The pattern `0x43800000` is the real 256. -/
theorem ofBits_256 : Ideal.ofBits .f32 0x43800000#32 = 256 := by
  rw [show (256 : EReal) = ((256 : ℝ) : EReal) by norm_cast]
  simp [Ideal.ofBits, Ideal.ieee, -EReal.coe_mul]; norm_num

/-! ## The tables and the two columns at an index, in the inputs' coordinates -/

section Values

variable (a0 : FVec Ideal S262144x2 .f32) (b : IVec S262144 32)
variable (x : Fin 262144 → Fin 256 → EReal) (bt : Fin 262144 → BitVec 32)

theorem rowS_apply (i : Fin 262144) : rowS a0 (ix1 i) = a0 (ix2 i (0 : Fin 2)) := by
  unfold rowS
  refine (shapeCast_a1_a_apply _ shapeCasts_S262144x1_S262144 i).trans ?_
  exact slice2_axis1_apply 0 a0 slices_S262144x2_S262144x1_0_0 i 0 0 rfl

theorem rowQ_apply (i : Fin 262144) : rowQ a0 (ix1 i) = a0 (ix2 i (1 : Fin 2)) := by
  unfold rowQ
  refine (shapeCast_a1_a_apply _ shapeCasts_S262144x1_S262144 i).trans ?_
  exact slice2_axis1_apply 1 a0 slices_S262144x2_S262144x1_0_1 i 0 1 rfl

theorem zeroT_apply (s : Fin 1024) : zeroT (ix1 s) = 0 := by
  unfold zeroT
  rw [bcastT_apply, constant_apply, Ideal.ofBits_zero_f32]

theorem idCol_apply (r : Fin 262144) (u : Fin 1) : idCol b (ix2 r u) = b (ix1 r) := by
  unfold idCol
  exact bcastCol_apply b r u

/-- The segment sizes. -/
theorem degT_apply (hb : ∀ i, b (ix1 i) = bt i) (s : Fin 1024) : degT b (ix1 s) = GraphNorm.deg bt s := by
  unfold degT GraphNorm.deg
  rw [scatterT_apply, zeroT_apply, zero_add]
  refine Finset.sum_congr rfl fun r _ => ?_
  rw [idCol_apply, hb, bcastR_apply, constant_apply, Ideal.ofBits_one_f32]

/-- The number of entries per segment. -/
theorem nrmT_apply (hb : ∀ i, b (ix1 i) = bt i) (s : Fin 1024) : nrmT b (ix1 s) = GraphNorm.nrm bt s := by
  unfold nrmT clipT GraphNorm.nrm
  rw [mulf_apply, maximumf_apply, degT_apply b bt hb, bcastT_apply, bcastT_apply, constant_apply, ofBits_256, id,
    constant_apply, Ideal.ofBits_one_f32]

/-- The segment sums. -/
theorem sumT_apply (h0 : ∀ i, a0 (ix2 i (0 : Fin 2)) = GraphNorm.rsum x i) (hb : ∀ i, b (ix1 i) = bt i) (s : Fin 1024) :
    sumT a0 b (ix1 s) = GraphNorm.segS x bt s := by
  unfold sumT GraphNorm.segS
  rw [scatterT_apply, zeroT_apply, zero_add]
  refine Finset.sum_congr rfl fun r _ => ?_
  rw [idCol_apply, hb, rowS_apply, h0]

/-- The segment sums of squares. -/
theorem sqT_apply (h1 : ∀ i, a0 (ix2 i (1 : Fin 2)) = GraphNorm.rsq x i) (hb : ∀ i, b (ix1 i) = bt i) (s : Fin 1024) :
    sqT a0 b (ix1 s) = GraphNorm.segQ x bt s := by
  unfold sqT GraphNorm.segQ
  rw [scatterT_apply, zeroT_apply, zero_add]
  refine Finset.sum_congr rfl fun r _ => ?_
  rw [idCol_apply, hb, rowQ_apply, h1]

/-- The host's quotient at an index is the quotient of the elements. -/
theorem hostDivf_apply {t : Shape} (u v : FVec Ideal t .f32) (i : t.Idx) :
    Host.divf (F := Ideal) u v i = Ideal.div (u i) (v i) := rfl
/-- The host's square root at an index is the square root of the element. -/
theorem hostSqrt_apply {t : Shape} (u : FVec Ideal t .f32) (i : t.Idx) :
    Host.sqrt (F := Ideal) u i = Ideal.sqrt (u i) := rfl

/-- The table of means. -/
theorem meanT_apply (h0 : ∀ i, a0 (ix2 i (0 : Fin 2)) = GraphNorm.rsum x i) (hb : ∀ i, b (ix1 i) = bt i) (s : Fin 1024) :
    meanT a0 b (ix1 s) = GraphNorm.meanK x bt s := by
  unfold meanT
  rw [hostDivf_apply, sumT_apply a0 b x bt h0 hb, nrmT_apply b bt hb]
  rfl

/-- The table of reciprocal deviations. -/
theorem invT_apply (h0 : ∀ i, a0 (ix2 i (0 : Fin 2)) = GraphNorm.rsum x i) (h1 : ∀ i, a0 (ix2 i (1 : Fin 2)) = GraphNorm.rsq x i)
    (hb : ∀ i, b (ix1 i) = bt i) (s : Fin 1024) :
    invT a0 b (ix1 s) = GraphNorm.invK x bt s := by
  unfold invT
  rw [hostDivf_apply, addf_apply, hostSqrt_apply, subf_apply, hostDivf_apply, mulf_apply,
    sqT_apply a0 b x bt h1 hb, nrmT_apply b bt hb, meanT_apply a0 b x bt h0 hb, bcastT_apply, bcastT_apply,
    constant_apply, constant_apply, Ideal.ofBits_one_f32]
  rfl

/-- The gather's start index of row `r`. -/
theorem wrapCol_apply (hb : ∀ i, b (ix1 i) = bt i) (r : Fin 262144) (u : Fin 1) :
    wrapCol b (ix2 r u)
      = Scalar.select (IntOp.cmpi .slt (bt r) 0#32) (IntOp.addi (bt r) 1024#32) (bt r) := by
  unfold wrapCol
  rw [bcastCol_apply]
  have e : ∀ (z k : IVec S262144 32), (select (cmpi .slt b z) (addi b k) b) (ix1 r)
      = Scalar.select (IntOp.cmpi .slt (b (ix1 r)) (z (ix1 r))) (IntOp.addi (b (ix1 r)) (k (ix1 r))) (b (ix1 r)) := fun _ _ => rfl
  rw [e, bcastR_apply, bcastR_apply, hb]
  rfl

/-- The table row the gather reads for row `i`. -/
theorem clamp_wrapCol (hb : ∀ i, b (ix1 i) = bt i) (r : Fin 262144) :
    RowDims.clampRow 1024 (by decide) (wrapCol b (ix2 r 0)) = GraphNorm.grow bt r := by
  rw [wrapCol_apply b bt hb]
  rfl

/-- The mean column at row `i`. -/
theorem meanCol_apply (h0 : ∀ i, a0 (ix2 i (0 : Fin 2)) = GraphNorm.rsum x i) (hb : ∀ i, b (ix1 i) = bt i) (i : Fin 262144) :
    meanCol a0 b (ix2 i (0 : Fin 1)) = GraphNorm.meanK x bt (GraphNorm.grow bt i) := by
  unfold meanCol
  rw [shapeCast_a_a1_apply, gatherT_apply, clamp_wrapCol b bt hb, meanT_apply a0 b x bt h0 hb]

/-- The reciprocal-deviation column at row `i`. -/
theorem invCol_apply (h0 : ∀ i, a0 (ix2 i (0 : Fin 2)) = GraphNorm.rsum x i) (h1 : ∀ i, a0 (ix2 i (1 : Fin 2)) = GraphNorm.rsq x i)
    (hb : ∀ i, b (ix1 i) = bt i) (i : Fin 262144) :
    invCol a0 b (ix2 i (0 : Fin 1)) = GraphNorm.invK x bt (GraphNorm.grow bt i) := by
  unfold invCol
  rw [shapeCast_a_a1_apply, gatherT_apply, clamp_wrapCol b bt hb, invT_apply a0 b x bt h0 h1 hb]

end Values

variable (m : (ℓ : Loc nD τ sig) → Buf (Elt Ideal) ℓ) (ρ : Dev nD → PrngReg)

/-- The segment ids after the first launch are the launch's: nothing writes them. -/
theorem W1_ids (c : Dev nD) (i : Fin 262144) : W1 m ρ c (Proc.devRef .tc main_arg1) (ix1 i) = Bt m c i :=
  congrFun ((W1_of_ne m ρ c main_arg1 (by decide)).trans rfl) (ix1 i)

/-- Row `i` of the mean column the second launch reads: the mean of the segment at row `i`'s table row. -/
theorem mean_row (c : Dev nD)
    (h0 : ∀ i : Fin 262144, W1 m ρ c (Proc.devRef .tc main_v0) (ix2 i (0 : Fin 2)) = GraphNorm.rsum (X m c) i)
    (h1 : ∀ i : Fin 262144, W1 m ρ c (Proc.devRef .tc main_v0) (ix2 i (1 : Fin 2)) = GraphNorm.rsq (X m c) i)
    (i : Fin 262144) :
    W4 m ρ c (Proc.devRef .tc main_v34) (ix2 i (0 : Fin 1))
      = GraphNorm.meanK (X m c) (Bt m c) (GraphNorm.grow (Bt m c) i) :=
  (congrFun (after_mean (W1 m ρ c)) (ix2 i (0 : Fin 1))).trans
    (meanCol_apply _ _ (X m c) (Bt m c) h0 (W1_ids m ρ c) i)

/-- Row `i` of the reciprocal-deviation column the second launch reads. -/
theorem inv_row (c : Dev nD)
    (h0 : ∀ i : Fin 262144, W1 m ρ c (Proc.devRef .tc main_v0) (ix2 i (0 : Fin 2)) = GraphNorm.rsum (X m c) i)
    (h1 : ∀ i : Fin 262144, W1 m ρ c (Proc.devRef .tc main_v0) (ix2 i (1 : Fin 2)) = GraphNorm.rsq (X m c) i)
    (i : Fin 262144) :
    W4 m ρ c (Proc.devRef .tc main_v42) (ix2 i (0 : Fin 1))
      = GraphNorm.invK (X m c) (Bt m c) (GraphNorm.grow (Bt m c) i) :=
  (congrFun (after_inv (W1 m ρ c)) (ix2 i (0 : Fin 1))).trans
    (invCol_apply _ _ (X m c) (Bt m c) h0 h1 (W1_ids m ρ c) i)

end Cert.KernelIdeal.HostValue

end
-- ==== Proof.KernelKept.lean ====
/-
  The matrix, the scale and the shift are as launched when the second launch is entered: the first launch only reads
  the matrix, and no host operation between the launches writes an argument.
-/
import proofs.«139286_j40578851012881_1_alg».proof.Proof.Gen.KernelIdeal.Frame

set_option maxRecDepth 16384

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- No operation of the three host stretches writes the buffer `b`, so the contents there are those after the first
    launch. -/
theorem W4_eq_W1 (c : Dev nD) (b : Ref sig .tc)
    (h2 : ∀ op ∈ (hostOps1_2 : List (HloOp τ sig (Elt F))), (Proc.devRef .tc b : DevRef τ sig) ∉ op.writes)
    (h1 : ∀ op ∈ (hostOps1_1 : List (HloOp τ sig (Elt F))), (Proc.devRef .tc b : DevRef τ sig) ∉ op.writes)
    (h0 : ∀ op ∈ (hostOps1 : List (HloOp τ sig (Elt F))), (Proc.devRef .tc b : DevRef τ sig) ∉ op.writes) :
    W4 m ρ c (Proc.devRef .tc b) = W1 m ρ c (Proc.devRef .tc b) :=
  ((StableHlo.after_of_forall_not_mem (b := Proc.devRef .tc b) _ _ h2).trans
    (StableHlo.after_of_forall_not_mem (b := Proc.devRef .tc b) _ _ h1)).trans
    (StableHlo.after_of_forall_not_mem (b := Proc.devRef .tc b) _ _ h0)

/-- Closes "no operation of this stretch writes that buffer": the stretch's list is opened, each operation's written
    buffer is named, and each is another buffer than the one asked about. -/
local macro "not_written_in" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The matrix is as launched when the second launch is entered: the first launch reads it through an input window,
    which leaves the array as it was. -/
theorem W4_main_arg0 (c : Dev nD) : W4 m ρ c (Proc.devRef .tc main_arg0) = m ((c.tc : Thread nD τ).loc main_arg0) :=
  calc W4 m ρ c (Proc.devRef .tc main_arg0)
    _ = W1 m ρ c (Proc.devRef .tc main_arg0) :=
        W4_eq_W1 m ρ c main_arg0 (by not_written_in hostOps1_2) (by not_written_in hostOps1_1) (by not_written_in hostOps1)
    _ = W0 m ρ c (Proc.devRef .tc main_arg0) :=
        (W1_arr m ρ c 0).trans (((dat0 (V0 m ρ) c).arrAt_in 0 rfl _).trans (A_eq0 (V0 m ρ) c 0))
    _ = m ((c.tc : Thread nD τ).loc main_arg0) := rfl

/-- The scale is as launched when the second launch is entered: the first launch does not touch it. -/
theorem W4_main_arg2 (c : Dev nD) : W4 m ρ c (Proc.devRef .tc main_arg2) = m ((c.tc : Thread nD τ).loc main_arg2) :=
  calc W4 m ρ c (Proc.devRef .tc main_arg2)
    _ = W1 m ρ c (Proc.devRef .tc main_arg2) :=
        W4_eq_W1 m ρ c main_arg2 (by not_written_in hostOps1_2) (by not_written_in hostOps1_1) (by not_written_in hostOps1)
    _ = W0 m ρ c (Proc.devRef .tc main_arg2) := W1_of_ne m ρ c main_arg2 (by decide)
    _ = m ((c.tc : Thread nD τ).loc main_arg2) := rfl

/-- The shift is as launched when the second launch is entered: the first launch does not touch it. -/
theorem W4_main_arg3 (c : Dev nD) : W4 m ρ c (Proc.devRef .tc main_arg3) = m ((c.tc : Thread nD τ).loc main_arg3) :=
  calc W4 m ρ c (Proc.devRef .tc main_arg3)
    _ = W1 m ρ c (Proc.devRef .tc main_arg3) :=
        W4_eq_W1 m ρ c main_arg3 (by not_written_in hostOps1_2) (by not_written_in hostOps1_1) (by not_written_in hostOps1)
    _ = W0 m ρ c (Proc.devRef .tc main_arg3) := W1_of_ne m ρ c main_arg3 (by decide)
    _ = m ((c.tc : Thread nD τ).loc main_arg3) := rfl

end Cert.KernelIdeal.Kept

end
-- ==== Proof.KernelValue.lean ====
/-
  The kernel program's result, entry by entry: the rows-first normalisation of Spec.lean, times the scale, plus the
  shift. The second launch's result is read off its blocks (KernelNorm.lean) at the contents the host operations leave
  (KernelHost.lean), which start from the first launch's result (KernelStats.lean); the matrix, the scale and the shift it
  reads are the launched ones (KernelKept.lean).
-/
import proofs.«139286_j40578851012881_1_alg».proof.Proof.KernelStats
import proofs.«139286_j40578851012881_1_alg».proof.Proof.KernelNorm
import proofs.«139286_j40578851012881_1_alg».proof.Proof.KernelHost
import proofs.«139286_j40578851012881_1_alg».proof.Proof.KernelKept

set_option maxRecDepth 16384

noncomputable section

open scoped BigOperators

namespace Cert.KernelIdeal.Result

open Idealize.ShloMosaic Idealize.ShloMosaic.TcCoe Idealize.SL.Sem Idealize.ShloMosaic.ValueIdx
open Cert.KernelIdeal Cert.KernelIdeal.Gen Cert.KernelIdeal.Args

variable (m : (ℓ : Loc nD τ sig) → Buf (Elt Ideal) ℓ) (ρ : Dev nD → PrngReg)

/-- After the first launch, column 0 of its result holds the row sums of the matrix as launched. -/
theorem stats0 (c : Dev nD) (i : Fin 262144) :
    W1 m ρ c (Proc.devRef .tc main_v0) (ix2 i (0 : Fin 2)) = GraphNorm.rsum (X m c) i :=
  (congrFun (W1_arr m ρ c 1) (ix2 i (0 : Fin 2))).trans (Stats.stats_sum (V0 m ρ) c i)

/-- After the first launch, column 1 of its result holds the row sums of squares of the matrix as launched. -/
theorem stats1 (c : Dev nD) (i : Fin 262144) :
    W1 m ρ c (Proc.devRef .tc main_v0) (ix2 i (1 : Fin 2)) = GraphNorm.rsq (X m c) i :=
  (congrFun (W1_arr m ρ c 1) (ix2 i (1 : Fin 2))).trans (Stats.stats_sq (V0 m ρ) c i)

/-- The kernel program's result at `(i, k)`. -/
theorem result_apply (c : Dev nD) (i : Fin 262144) (k : Fin 256) :
    W5 m ρ c (Proc.devRef .tc main_v43) (ix2 i k)
      = GraphNorm.normK (X m c) (Bt m c) (GraphNorm.grow (Bt m c)) i k * Wt m c k + Bs m c k := by
  refine (congrFun (W5_arr m ρ c 5) (ix2 i k)).trans ?_
  refine (Norm.out_apply (V4 m ρ) c i k).trans ?_
  have hx : Norm.xarr (V4 m ρ) c = m ((c.tc : Thread nD τ).loc main_arg0) := Kept.W4_main_arg0 m ρ c
  have hw : Norm.warr (V4 m ρ) c = m ((c.tc : Thread nD τ).loc main_arg2) := Kept.W4_main_arg2 m ρ c
  have hb : Norm.barr (V4 m ρ) c = m ((c.tc : Thread nD τ).loc main_arg3) := Kept.W4_main_arg3 m ρ c
  have hm : Norm.mcol (V4 m ρ) c (ix2 i (0 : Fin 1)) = GraphNorm.meanK (X m c) (Bt m c) (GraphNorm.grow (Bt m c) i) :=
    HostValue.mean_row m ρ c (stats0 m ρ c) (stats1 m ρ c) i
  have hi : Norm.icol (V4 m ρ) c (ix2 i (0 : Fin 1)) = GraphNorm.invK (X m c) (Bt m c) (GraphNorm.grow (Bt m c) i) :=
    HostValue.inv_row m ρ c (stats0 m ρ c) (stats1 m ρ c) i
  rw [hx, hw, hb, hm, hi]
  rfl

end Cert.KernelIdeal.Result

end
-- ==== Proof.RefValue.lean ====
/-
  The reference program's result, entry by entry: the columns-first normalisation of Spec.lean, times the scale, plus
  the shift.

  The program is read from its result inwards. A pointwise or layout operation's element is one element of each
  operand, at a position computed from the result's; the five operations whose read position depends on the
  segment ids are read here:
  * the degree, a flat scatter-add of ones into the zero table, counts the rows of each segment;
  * the two row scatter-adds into the zero table add, column by column, the rows of each segment (of the matrix,
    and of the squared centred matrix);
  * the two row gathers read the mean table and the deviation table at the row's wrapped and clamped id.
  Each intermediate the result reuses gets one lemma: the number of entries of a segment, the mean table, the
  centred matrix, the deviation table.
-/
import proofs.«139286_j40578851012881_1_alg».proof.Proof.Gen.ReferenceIdeal.Read
import proofs.«139286_j40578851012881_1_alg».proof.Proof.Spec
import proofs.«139286_j40578851012881_1_alg».proof.Proof.LibRowDims
import proofs.«139286_j40578851012881_1_alg».proof.Proof.LibVecDims
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Read

/-! ### The program's dimension numbers are the general ones over these extents -/

/-- The flat scatter's dimension numbers. -/
theorem vecScatter_eq :
    scatter_S1024_S262144x1_S262144_n_0_0_1
      = VecDims.vecScatter 1024 262144 Facts₀.scatter_S1024_S262144x1_S262144_n_0_0_1_wf := rfl

/-- The row scatters' dimension numbers. -/
theorem rowScatter_eq :
    scatter_S1024x256_S262144x1_S262144x256_1_0_0_1
      = RowDims.rowScatter 1024 256 262144 Facts₀.scatter_S1024x256_S262144x1_S262144x256_1_0_0_1_wf := rfl

/-- The row gathers' dimension numbers. -/
theorem rowGather_eq :
    gather_S1024x1_S262144x1_S262144x1_1_0_n_n_0_1_11
      = RowDims.rowGather 1024 1 262144 Facts₀.gather_S1024x1_S262144x1_S262144x1_1_0_n_n_0_1_11_wf := rfl

/-- At the ideal values the host's accumulating scatter is the exact sum. -/
theorem scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-! ### The literals -/

/-- The pattern of `256.0` denotes the extended real `256`. -/
theorem ofBits_256 : Ideal.ofBits .f32 0x43800000#32 = 256 := by
  rw [show (256 : EReal) = ((256 : ℝ) : EReal) by norm_cast]
  simp [Ideal.ofBits, Ideal.ieee, -EReal.coe_mul]; norm_num

/-! ### The layout operations' index maps, in coordinates -/

section
variable (x0 : (⟨S262144x256, .f32⟩ : BufTy).Contents (Elt Ideal)) (x1 : (⟨S262144, .i32⟩ : BufTy).Contents (Elt Ideal))

theorem idx_v2 (r : Fin 262144) : idx_main_v2 (ix2 r (0 : Fin 1)) = ix1 r :=
  funext fun a => Fin.ext (by match a with | ⟨0, _⟩ => rfl)
theorem idx_v9 (r : Fin 262144) : idx_main_v9 (ix2 r (0 : Fin 1)) = ix1 r :=
  funext fun a => Fin.ext (by match a with | ⟨0, _⟩ => rfl)
theorem idx_v25 (r : Fin 262144) : idx_main_v25 (ix2 r (0 : Fin 1)) = ix1 r :=
  funext fun a => Fin.ext (by match a with | ⟨0, _⟩ => rfl)
theorem idx_v19 (r : Fin 262144) : idx_main_v19 (ix2 r (0 : Fin 1)) = ix1 r :=
  funext fun a => Fin.ext (by match a with | ⟨0, _⟩ => rfl)
theorem idx_v36 (r : Fin 262144) : idx_main_v36 (ix2 r (0 : Fin 1)) = ix1 r :=
  funext fun a => Fin.ext (by match a with | ⟨0, _⟩ => rfl)
theorem idx_v5 (s : Fin 1024) : idx_main_v5 (ix2 s (0 : Fin 1)) = ix1 s :=
  funext fun a => Fin.ext (by match a with | ⟨0, _⟩ => rfl)
theorem idx_v12 (s : Fin 1024) : idx_main_v12 (ix2 s (0 : Fin 1)) = ix1 s :=
  funext fun a => Fin.ext (by match a with | ⟨0, _⟩ => rfl)
theorem idx_v28 (s : Fin 1024) : idx_main_v28 (ix2 s (0 : Fin 1)) = ix1 s :=
  funext fun a => Fin.ext (by match a with | ⟨0, _⟩ => rfl)
theorem idx_v11 (s : Fin 1024) (k : Fin 256) : idx_main_v11 (ix1 s) k = ix2 s k :=
  funext fun a => Fin.ext (by match a with | ⟨0, _⟩ => rfl | ⟨1, _⟩ => rfl)
theorem idx_v27 (s : Fin 1024) (k : Fin 256) : idx_main_v27 (ix1 s) k = ix2 s k :=
  funext fun a => Fin.ext (by match a with | ⟨0, _⟩ => rfl | ⟨1, _⟩ => rfl)
theorem idx_v21 (i : Fin 262144) (k : Fin 256) : idx_main_v21 (ix2 i k) = ix2 i (0 : Fin 1) :=
  funext fun a => Fin.ext (by match a with | ⟨0, _⟩ => rfl | ⟨1, _⟩ => rfl)
theorem idx_v40 (i : Fin 262144) (k : Fin 256) : idx_main_v40 (ix2 i k) = ix2 i (0 : Fin 1) :=
  funext fun a => Fin.ext (by match a with | ⟨0, _⟩ => rfl | ⟨1, _⟩ => rfl)
theorem idx_v42_43 (i : Fin 262144) (k : Fin 256) : idx_main_v42 (idx_main_v43 (ix2 i k)) = ix1 k :=
  funext fun a => Fin.ext (by match a with | ⟨0, _⟩ => rfl)
theorem idx_v45_46 (i : Fin 262144) (k : Fin 256) : idx_main_v45 (idx_main_v46 (ix2 i k)) = ix1 k :=
  funext fun a => Fin.ext (by match a with | ⟨0, _⟩ => rfl)

/-! ### The degree and the number of entries of a segment -/

/-- The flat scatter-add of ones into the zero table counts the rows of each segment. -/
theorem deg_apply (s : Fin 1024) :
    val_main_v3 (F := Ideal) x1 (ix1 s) = GraphNorm.deg (fun i => x1 (ix1 i)) s := by
  unfold val_main_v3
  rw [scatterAdd_ideal, vecScatter_eq, VecDims.vecScatterAdd_apply]
  simp only [val_main_v1_apply, val_main_cst_0_apply, val_main_v2_apply, val_main_v0_apply, val_main_cst_apply,
    Ideal.ofBits_def, Ideal.ofBits_zero_f32, Ideal.ofBits_one_f32, zero_add, idx_v2]
  rfl

/-- The clipped degree times the row length. -/
theorem nrm_apply (s : Fin 1024) :
    val_main_v7 (F := Ideal) x1 (ix2 s 0) = GraphNorm.nrm (fun i => x1 (ix1 i)) s := by
  rw [val_main_v7_apply, val_main_v5_apply, idx_v5, val_main_v4_apply, val_main_call0_v1_apply, val_main_call0_v0_apply,
    val_main_cst_1_apply, val_main_v6_apply, val_main_cst_2_apply, deg_apply]
  simp only [Ideal.mulf_def, Ideal.maximumf_def, Ideal.ofBits_def, Ideal.ofBits_one_f32, ofBits_256]
  rfl

/-! ### The mean table -/

/-- The row scatter-add of the matrix into the zero table adds the rows of each segment, column by column. -/
theorem v10_apply (s : Fin 1024) (k : Fin 256) :
    val_main_v10 (F := Ideal) x0 x1 (ix2 s k)
      = ∑ r : Fin 262144, if (x1 (ix1 r)).toInt = (s.val : Int) then x0 (ix2 r k) else 0 := by
  unfold val_main_v10
  rw [scatterAdd_ideal, rowScatter_eq, RowDims.rowScatterAdd_apply]
  simp only [val_main_v8_apply, val_main_cst_3_apply, val_main_v9_apply, Ideal.ofBits_def, Ideal.ofBits_zero_f32,
    zero_add, idx_v9]

/-- The segment's column sums, summed over the columns, divided by the number of its entries. -/
theorem mean_apply (s : Fin 1024) :
    val_main_v13 (F := Ideal) x0 x1 (ix2 s 0)
      = GraphNorm.meanR (fun i k => x0 (ix2 i k)) (fun i => x1 (ix1 i)) s := by
  rw [val_main_v13_apply, val_main_v12_apply, idx_v12, val_main_v11_apply, val_main_cst_4_apply, nrm_apply]
  simp only [idx_v11, v10_apply, Ideal.hostDivf_def, Ideal.ofBits_def, Ideal.ofBits_zero_f32, zero_add]
  rfl

/-! ### The gathers' rows -/

/-- The wrapped id, as the first gather reads it. -/
theorem v19_apply (i : Fin 262144) :
    val_main_v19 (F := Ideal) x1 (ix2 i 0)
      = Scalar.select (IntOp.cmpi .slt (x1 (ix1 i)) 0#32) (IntOp.addi (x1 (ix1 i)) 1024#32) (x1 (ix1 i)) := by
  rw [val_main_v19_apply, idx_v19, val_main_v18_apply, val_main_v15_apply, val_main_v14_apply, val_main_c_apply,
    val_main_v17_apply, val_main_v16_apply, val_main_c_5_apply]

/-- The wrapped id, as the second gather reads it. -/
theorem v36_apply (i : Fin 262144) :
    val_main_v36 (F := Ideal) x1 (ix2 i 0)
      = Scalar.select (IntOp.cmpi .slt (x1 (ix1 i)) 0#32) (IntOp.addi (x1 (ix1 i)) 1024#32) (x1 (ix1 i)) := by
  rw [val_main_v36_apply, idx_v36, val_main_v35_apply, val_main_v32_apply, val_main_v31_apply, val_main_c_8_apply,
    val_main_v34_apply, val_main_v33_apply, val_main_c_9_apply]

/-- The clamped row of the wrapped id is the gather row of the specification. -/
theorem clamp_grow (i : Fin 262144) :
    RowDims.clampRow 1024 (by decide)
        (Scalar.select (IntOp.cmpi .slt (x1 (ix1 i)) 0#32) (IntOp.addi (x1 (ix1 i)) 1024#32) (x1 (ix1 i)))
      = GraphNorm.grow (fun i => x1 (ix1 i)) i := rfl

/-! ### The centred matrix -/

/-- The first gather reads the mean table at the row's gather row. -/
theorem v20_apply (i : Fin 262144) :
    val_main_v20 (F := Ideal) x0 x1 (ix2 i 0)
      = GraphNorm.meanR (fun i k => x0 (ix2 i k)) (fun i => x1 (ix1 i)) (GraphNorm.grow (fun i => x1 (ix1 i)) i) := by
  unfold val_main_v20
  rw [rowGather_eq, RowDims.rowGather_apply (by decide : 0 < 1024), v19_apply, clamp_grow, mean_apply]

/-- The entry less the mean of its row's gather row. -/
theorem cen_apply (i : Fin 262144) (k : Fin 256) :
    val_main_v22 (F := Ideal) x0 x1 (ix2 i k)
      = GraphNorm.cenR (fun i k => x0 (ix2 i k)) (fun i => x1 (ix1 i)) (GraphNorm.grow (fun i => x1 (ix1 i))) i k := by
  rw [val_main_v22_apply, val_main_v21_apply, idx_v21, v20_apply, Ideal.subf_def]
  rfl

/-! ### The deviation table -/

/-- The row scatter-add of the squared centred matrix into the zero table adds the squared centred rows of each
    segment, column by column. -/
theorem v26_apply (s : Fin 1024) (k : Fin 256) :
    val_main_v26 (F := Ideal) x0 x1 (ix2 s k)
      = ∑ r : Fin 262144, if (x1 (ix1 r)).toInt = (s.val : Int) then
          GraphNorm.cenR (fun i k => x0 (ix2 i k)) (fun i => x1 (ix1 i)) (GraphNorm.grow (fun i => x1 (ix1 i))) r k
            * GraphNorm.cenR (fun i k => x0 (ix2 i k)) (fun i => x1 (ix1 i)) (GraphNorm.grow (fun i => x1 (ix1 i))) r k
        else 0 := by
  unfold val_main_v26
  rw [scatterAdd_ideal, rowScatter_eq, RowDims.rowScatterAdd_apply]
  simp only [val_main_v24_apply, val_main_cst_6_apply, val_main_v25_apply, val_main_v23_apply, cen_apply,
    Ideal.mulf_def, Ideal.ofBits_def, Ideal.ofBits_zero_f32, zero_add, idx_v25]

/-- The square root of the segment's variance: its squared centred entries summed, divided by their number. -/
theorem dev_apply (s : Fin 1024) :
    val_main_v30 (F := Ideal) x0 x1 (ix2 s 0)
      = Ideal.sqrt (GraphNorm.varR (fun i k => x0 (ix2 i k)) (fun i => x1 (ix1 i))
          (GraphNorm.grow (fun i => x1 (ix1 i))) s) := by
  rw [val_main_v30_apply, val_main_v29_apply, val_main_v28_apply, idx_v28, val_main_v27_apply, val_main_cst_7_apply,
    nrm_apply]
  simp only [idx_v27, v26_apply, Ideal.hostDivf_def, Ideal.hostUnary_sqrt_def, Ideal.ofBits_def, Ideal.ofBits_zero_f32,
    zero_add]
  rfl

/-- The second gather reads the deviation table at the row's gather row. -/
theorem v37_apply (i : Fin 262144) :
    val_main_v37 (F := Ideal) x0 x1 (ix2 i 0)
      = Ideal.sqrt (GraphNorm.varR (fun i k => x0 (ix2 i k)) (fun i => x1 (ix1 i))
          (GraphNorm.grow (fun i => x1 (ix1 i))) (GraphNorm.grow (fun i => x1 (ix1 i)) i)) := by
  unfold val_main_v37
  rw [rowGather_eq, RowDims.rowGather_apply (by decide : 0 < 1024), v36_apply, clamp_grow, dev_apply]

end

/-- The reference's result at `(i, k)`. -/
theorem result_apply (x0 : (⟨S262144x256, .f32⟩ : BufTy).Contents (Elt Ideal)) (x1 : (⟨S262144, .i32⟩ : BufTy).Contents (Elt Ideal))
    (x2 x3 : (⟨S256, .f32⟩ : BufTy).Contents (Elt Ideal)) (i : Fin 262144) (k : Fin 256) :
    val_main_v47 (F := Ideal) x0 x1 x2 x3 (ix2 i k)
      = GraphNorm.normR (fun i k => x0 (ix2 i k)) (fun i => x1 (ix1 i)) (GraphNorm.grow (fun i => x1 (ix1 i))) i k
          * x2 (ix1 k) + x3 (ix1 k) := by
  rw [val_main_v47_apply, val_main_v44_apply, val_main_v41_apply, val_main_v40_apply, idx_v40, val_main_v39_apply,
    val_main_v38_apply, val_main_cst_10_apply, v37_apply, cen_apply, val_main_v43_apply, val_main_v42_apply, idx_v42_43,
    val_main_v46_apply, val_main_v45_apply, idx_v45_46]
  simp only [Ideal.addf_def, Ideal.mulf_def, Ideal.hostDivf_def, Ideal.ofBits_def]
  rfl

end Cert.ReferenceIdeal.RefValue

end
-- ==== Proof.Algebra.lean ====
/-
  The two normalisations of Spec.lean agree on a matrix of real entries.

  Every entry is the coercion of a real, so every quantity of either computation is the coercion of its real
  counterpart: sums, products, differences, guarded terms, the maximum with one and the quotients by the (nonzero)
  entry count all commute with the coercion. Over the reals the two means agree by exchanging the two sums, and the two
  variances agree by the identity "mean of the squares less the squared mean = mean of the squared deviations", which
  holds because every row of a segment is centred by that segment's own mean. The common variance is not negative, so
  its square root is a real, ε is a positive real, and the divisor is a nonzero real: dividing by it is multiplying by
  its reciprocal.
-/
import proofs.«139286_j40578851012881_1_alg».proof.Proof.Spec

noncomputable section

open scoped BigOperators

namespace Cert.GraphNorm

open Idealize.ShloMosaic

namespace Alg

/-! ### The real-number side, over any finite sets of rows and columns

`P i` says that row `i` lies in the segment at hand, `xr` is the matrix of real entries and `c` the number of
columns. -/

section RealSide
variable {ι κ : Type} [Fintype ι] [Fintype κ] (P : ι → Prop) [DecidablePred P] (xr : ι → κ → ℝ) (c : ℝ)

/-- The number of rows of the segment. -/
def degF : ℝ := ∑ i, if P i then (1 : ℝ) else 0
/-- The number of entries of the segment, an empty segment counted as one row. -/
def nrmF : ℝ := max 1 (degF P) * c
/-- The sum of the entries of the segment. -/
def sF : ℝ := ∑ i, if P i then ∑ k, xr i k else 0
/-- The sum of the squared entries of the segment. -/
def qF : ℝ := ∑ i, if P i then ∑ k, xr i k * xr i k else 0
/-- The mean of the segment. -/
def muF : ℝ := sF P xr / nrmF P c
/-- The mean of the squared centred entries of the segment. -/
def vF : ℝ := (∑ k, ∑ i, if P i then (xr i k - muF P xr c) * (xr i k - muF P xr c) else 0) / nrmF P c

/-- The number of entries is positive: it is at least one row of `c > 0` columns. -/
theorem nrmF_pos (hc : 0 < c) : 0 < nrmF P c :=
  mul_pos (lt_of_lt_of_le one_pos (le_max_left _ _)) hc

/-- Rows first or columns first, the sum of the segment's entries is the same: the two sums are exchanged and the
    guard moves inside the inner sum. -/
theorem sF_comm : sF P xr = ∑ k, ∑ i, if P i then xr i k else 0 := by
  unfold sF
  rw [Finset.sum_comm]
  refine Finset.sum_congr rfl fun i _ => ?_
  split_ifs <;> simp

/-- The sum of the squared deviations from any number `μ`, expanded: `Q − 2 μ S + μ² · (c · deg)`, by
    `(x − μ)² = x² − 2 μ x + μ²` summed over the columns of each row of the segment and then over its rows. -/
theorem expand (μ : ℝ) (hc : (Fintype.card κ : ℝ) = c) :
    (∑ k, ∑ i, if P i then (xr i k - μ) * (xr i k - μ) else 0)
      = qF P xr - 2 * μ * sF P xr + μ * μ * (c * degF P) := by
  rw [Finset.sum_comm]
  have h1 : ∀ i, (∑ k, if P i then (xr i k - μ) * (xr i k - μ) else 0) =
      (if P i then ∑ k, xr i k * xr i k else 0) - 2 * μ * (if P i then ∑ k, xr i k else 0)
        + μ * μ * (c * (if P i then (1 : ℝ) else 0)) := by
    intro i
    split_ifs with h
    · have h2 : ∀ k, (xr i k - μ) * (xr i k - μ) = xr i k * xr i k - 2 * μ * xr i k + μ * μ := fun k => by ring
      simp only [h2, Finset.sum_add_distrib, Finset.sum_sub_distrib, ← Finset.mul_sum, Finset.sum_const,
        Finset.card_univ, nsmul_eq_mul, hc]
      ring
    · simp
  simp only [h1, Finset.sum_add_distrib, Finset.sum_sub_distrib, ← Finset.mul_sum]
  rfl

/-- `μ² · (c · deg) = μ² · nrm`: the row count is a natural number, the size of the set of rows of the segment. If
    it is at least one, `max 1 deg = deg`; if it is zero the segment has no row, its sum is zero and so is `μ`. -/
theorem mu_sq_nrm :
    muF P xr c * muF P xr c * (c * degF P) = muF P xr c * muF P xr c * nrmF P c := by
  have hd : degF P = ((Finset.univ.filter P).card : ℝ) := by
    unfold degF; rw [Finset.sum_boole]
  rcases Nat.eq_zero_or_pos (Finset.univ.filter P).card with h0 | h1
  · have hP : ∀ i, ¬ P i := by
      intro i hi
      have hempty := Finset.card_eq_zero.mp h0
      have hmem : i ∈ Finset.univ.filter P := Finset.mem_filter.mpr ⟨Finset.mem_univ i, hi⟩
      rw [hempty] at hmem
      exact absurd hmem (Finset.notMem_empty i)
    have hS : sF P xr = 0 := by
      unfold sF
      exact Finset.sum_eq_zero fun i _ => if_neg (hP i)
    have hmu : muF P xr c = 0 := by unfold muF; rw [hS, zero_div]
    rw [hmu]; ring
  · have h1' : (1 : ℝ) ≤ degF P := by rw [hd]; exact_mod_cast h1
    have hn : nrmF P c = degF P * c := by unfold nrmF; rw [max_eq_right h1']
    rw [hn]; ring

/-- The variance identity: the mean of the squares less the squared mean is the mean of the squared centred
    entries. With `S = μ n` the expansion `Q − 2 μ S + μ² n` is `Q − μ² n`, and `n ≠ 0` divides it. -/
theorem var_eq (hc : (Fintype.card κ : ℝ) = c) (hcpos : 0 < c) :
    qF P xr / nrmF P c - muF P xr c * muF P xr c = vF P xr c := by
  have hn : nrmF P c ≠ 0 := (nrmF_pos P c hcpos).ne'
  unfold vF
  rw [expand P xr c _ hc, mu_sq_nrm P xr c]
  have hS : sF P xr = muF P xr c * nrmF P c := by unfold muF; field_simp
  rw [hS]
  field_simp
  ring

/-- The variance is not negative: a sum of squares over a positive number. -/
theorem vF_nonneg (hcpos : 0 < c) : 0 ≤ vF P xr c := by
  unfold vF
  refine div_nonneg (Finset.sum_nonneg fun k _ => Finset.sum_nonneg fun i _ => ?_) (nrmF_pos P c hcpos).le
  split_ifs
  · exact mul_self_nonneg _
  · exact le_refl _

end RealSide

/-- The constant ε is a positive real: its pattern is a positive normal number. -/
theorem eps_pos : ∃ e : ℝ, 0 < e ∧ eps = (e : EReal) := by
  unfold eps
  simp [Ideal.ofBits, Ideal.ieee, -EReal.coe_mul]

/-! ### Coercions of reals into the extended reals -/

section Coe

/-- A finite sum of coerced reals is the coercion of the sum. -/
theorem coe_sum {α : Type} (t : Finset α) (f : α → ℝ) :
    (∑ a ∈ t, (f a : EReal)) = ((∑ a ∈ t, f a : ℝ) : EReal) := by
  classical
  induction t using Finset.induction_on with
  | empty => simp
  | insert a t ha ih => rw [Finset.sum_insert ha, Finset.sum_insert ha, ih, EReal.coe_add]

/-- A guarded coerced real is the coercion of the guarded real. -/
theorem coe_ite (p : Prop) [Decidable p] (a : ℝ) :
    (if p then (a : EReal) else 0) = ((if p then a else 0 : ℝ) : EReal) := by
  split_ifs <;> simp

/-- The coercion commutes with `max`, being monotone. -/
theorem coe_max' (a b : ℝ) : max (a : EReal) (b : EReal) = ((max a b : ℝ) : EReal) :=
  (EReal.coe_strictMono.monotone.map_max).symm

/-- The quotient of two coerced reals by a nonzero divisor is the coercion of the real quotient. -/
theorem div_coe_coe (a b : ℝ) (hb : b ≠ 0) : Ideal.div (a : EReal) (b : EReal) = ((a / b : ℝ) : EReal) := by
  rw [Ideal.div_coe hb, ← EReal.coe_mul, mul_one_div]

end Coe

/-! ### Every quantity of the two computations is the coercion of its real counterpart -/

section Quantities
variable (bt : Fin 262144 → BitVec 32) (xr : Fin 262144 → Fin 256 → ℝ) (s : Fin 1024)

/-- The matrix has 256 columns. -/
theorem card_cols : ((Fintype.card (Fin 256) : ℕ) : ℝ) = 256 := by
  rw [Fintype.card_fin]; norm_num

/-- The row count is the coercion of the real row count. -/
theorem deg_coe : deg bt s = ((degF (fun i => hit bt i s) : ℝ) : EReal) := by
  unfold deg degF
  rw [← coe_sum]
  refine Finset.sum_congr rfl fun i _ => ?_
  split_ifs <;> simp

/-- The entry count is the coercion of the real entry count. -/
theorem nrm_coe : nrm bt s = ((nrmF (fun i => hit bt i s) 256 : ℝ) : EReal) := by
  unfold nrm nrmF
  rw [deg_coe, EReal.coe_mul, ← coe_max']
  rfl

/-- The real entry count is not zero. -/
theorem nrm_ne : nrmF (fun i => hit bt i s) 256 ≠ 0 := (nrmF_pos _ 256 (by norm_num)).ne'

/-- The segment sum of coerced entries is the coercion of the real segment sum. -/
theorem segS_coe : segS (fun i k => ((xr i k : ℝ) : EReal)) bt s = ((sF (fun i => hit bt i s) xr : ℝ) : EReal) := by
  unfold segS sF rsum
  simp only [coe_sum, coe_ite]

/-- The segment sum of squares of coerced entries is the coercion of the real one. -/
theorem segQ_coe : segQ (fun i k => ((xr i k : ℝ) : EReal)) bt s = ((qF (fun i => hit bt i s) xr : ℝ) : EReal) := by
  unfold segQ qF rsq
  simp only [← EReal.coe_mul, coe_sum, coe_ite]

/-- The rows-first mean is the coercion of the real mean: a quotient by a nonzero real. -/
theorem meanK_coe :
    meanK (fun i k => ((xr i k : ℝ) : EReal)) bt s = ((muF (fun i => hit bt i s) xr 256 : ℝ) : EReal) := by
  unfold meanK muF
  rw [segS_coe, nrm_coe, div_coe_coe _ _ (nrm_ne bt s)]

/-- The columns-first mean is the coercion of the same real mean: the two orders of summation agree. -/
theorem meanR_coe :
    meanR (fun i k => ((xr i k : ℝ) : EReal)) bt s = ((muF (fun i => hit bt i s) xr 256 : ℝ) : EReal) := by
  unfold meanR muF
  simp only [coe_ite, coe_sum]
  rw [← sF_comm, nrm_coe, div_coe_coe _ _ (nrm_ne bt s)]

/-- The rows-first variance is the coercion of the mean of the squares less the squared mean. -/
theorem varK_coe :
    varK (fun i k => ((xr i k : ℝ) : EReal)) bt s
      = ((qF (fun i => hit bt i s) xr / nrmF (fun i => hit bt i s) 256
          - muF (fun i => hit bt i s) xr 256 * muF (fun i => hit bt i s) xr 256 : ℝ) : EReal) := by
  unfold varK
  rw [segQ_coe, nrm_coe, meanK_coe, div_coe_coe _ _ (nrm_ne bt s), ← EReal.coe_mul, ← EReal.coe_sub]

/-- The columns-first variance is the coercion of the mean of the squared centred entries. -/
theorem varR_coe (g : Fin 262144 → Fin 1024) (hg : ∀ i s, hit bt i s → g i = s) :
    varR (fun i k => ((xr i k : ℝ) : EReal)) bt g s = ((vF (fun i => hit bt i s) xr 256 : ℝ) : EReal) := by
  unfold varR vF
  -- inside segment `s` every row gathers the mean of `s` itself
  have h1 : ∀ (k : Fin 256) (i : Fin 262144),
      (if hit bt i s then cenR (fun i k => ((xr i k : ℝ) : EReal)) bt g i k * cenR (fun i k => ((xr i k : ℝ) : EReal)) bt g i k else 0)
        = (((if hit bt i s then (xr i k - muF (fun i => hit bt i s) xr 256) * (xr i k - muF (fun i => hit bt i s) xr 256) else 0 : ℝ)) : EReal) := by
    intro k i
    split_ifs with h
    · unfold cenR
      rw [hg i s h, meanR_coe, ← EReal.coe_sub, ← EReal.coe_mul]
    · simp
  simp only [h1, coe_sum]
  rw [nrm_coe, div_coe_coe _ _ (nrm_ne bt s)]

end Quantities

end Alg

open Alg

/-- A row whose id IS the segment `s` gathers table row `s`: the id is not negative, so it is not wrapped, and it is
    below 1024, so the clamp leaves it. -/
theorem grow_of_hit (bt : Fin 262144 → BitVec 32) (i : Fin 262144) (s : Fin 1024) (h : hit bt i s) : grow bt i = s := by
  have hs := s.isLt
  have h0 : (bt i).toInt = (s.val : Int) := h
  -- the id is not negative: the signed comparison with zero fails
  have hslt : (bt i).slt 0#32 = false := by
    rw [BitVec.slt_eq_decide]
    simp [h0]
  apply Fin.ext
  -- a cleared condition bit selects the unwrapped id, and the clamp at 1023 leaves a number below 1024
  simp only [grow, IntOp.cmpi, hslt, Scalar.select]
  simp [h0]
  omega

/-- On real entries the two normalised entries are equal, for any gather row that sends each row of a segment to
    that segment. -/
theorem normK_eq_normR (x : Fin 262144 → Fin 256 → EReal) (bt : Fin 262144 → BitVec 32) (g : Fin 262144 → Fin 1024)
    (hx : ∀ i k, ∃ r : ℝ, x i k = (r : EReal)) (hg : ∀ i s, hit bt i s → g i = s) (i : Fin 262144) (k : Fin 256) :
    normK x bt g i k = normR x bt g i k := by
  -- the entries are coerced reals
  choose xr hxr using hx
  obtain rfl : x = fun i k => ((xr i k : ℝ) : EReal) := funext fun i => funext fun k => hxr i k
  obtain ⟨e, he, heps⟩ := eps_pos
  -- both variances are the coercion of one real, which is not negative
  have hv := vF_nonneg (fun j => hit bt j (g i)) xr 256 (by norm_num)
  have hd : Real.sqrt (vF (fun j => hit bt j (g i)) xr 256) + e ≠ 0 :=
    (add_pos_of_nonneg_of_pos (Real.sqrt_nonneg _) he).ne'
  unfold normK normR invK cenR
  rw [varK_coe, varR_coe bt xr (g i) g hg, var_eq _ xr 256 card_cols (by norm_num), meanK_coe, meanR_coe, heps,
    Ideal.sqrt_coe, if_neg (not_lt.mpr hv), ← EReal.coe_add, Ideal.div_coe hd, Ideal.div_coe hd, one_mul]

end Cert.GraphNorm

end
-- ==== Proof.Finite.lean ====
/-
  Under the precondition every entry of the matrix is a real number.

  The precondition is the conjunction of three "all entries finite" tests, each an and-reduction over
  every index of the bits `|v| < +∞`. Its value 1 gives the first conjunct, hence the bit of every
  matrix entry; on the extended reals `|x| = max x (-x)` is `⊤` at both infinities, so a set bit leaves
  only the real numbers.
-/
import proofs.«139286_j40578851012881_1_alg».proof.Defs
import proofs.«139286_j40578851012881_1_alg».proof.Proof.Gen.Pre_finite_inputs
import Idealize.ShloMosaic.Lib.ValueIdx
import Idealize.ShloMosaic.Lib.ReduceAll

noncomputable section

namespace Cert.Proof.Finite

open Idealize.ShloMosaic Idealize.ShloMosaic.TcCoe Idealize.SL.Sem Idealize.ShloMosaic.ValueIdx

/-- The rank-0 shape has a single index. -/
instance : Subsingleton Cert.Pre_finite_inputs.S_.Idx := ⟨fun a b => funext fun d => d.elim0⟩

/-- An extended real whose absolute value `max x (-x)` lies strictly below `⊤` is a real number:
    at `⊥` and at `⊤` the absolute value is `⊤` itself. -/
theorem real_of_abs_lt_top (x : EReal) (h : max x (-x) < ⊤) : ∃ r : ℝ, x = (r : EReal) := by
  induction x using EReal.rec with
  | bot => simp at h
  | top => simp at h
  | coe r => exact ⟨r, rfl⟩

/-- One element of the comparison array: the bit of `|x| < +∞` being set says `x` is a real number.
    The pattern `0x7F800000` denotes `⊤`, and the ordered less-than is the strict order of the extended
    reals written as a bit. -/
theorem real_of_bit (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.ofBits_def, htop] at h
  have hlt : max x (-x) < (⊤ : EReal) := by
    -- were the strict inequality false the bit would be 0
    by_contra hn
    have h0 : Ideal.cmp .olt (max x (-x)) ⊤ = 0#1 := by
      simp only [Ideal.cmp, decide_eq_false hn]; rfl
    have h1 : Ideal.cmp .olt (max x (-x)) ⊤ = 1#1 := h
    rw [h0] at h1
    exact absurd h1 (by decide)
  exact real_of_abs_lt_top x hlt

/-- The precondition's first conjunct, read back at one entry of the matrix. -/
theorem x_real [hPre : Cert.Pre_finite_inputs.Facts] [hK : Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 262144) (k : Fin 256) :
    ∃ r : ℝ, m ((c.tc : Thread Cert.KernelIdeal.nD Cert.KernelIdeal.τ).loc Cert.KernelIdeal.main_arg0) (ix2 i k) = (r : EReal) := by
  -- the predicate's one result word is 1
  have h := congrFun (hpre c) ValueIdx.ix0
  dsimp only [Cert.Pre_finite_inputs.fn] at h
  -- (matrix ∧ weight) ∧ bias: keep the matrix's conjunct
  obtain ⟨h12, _⟩ := IntOp.andi_eq_one.1 h
  obtain ⟨h1, _⟩ := IntOp.andi_eq_one.1 h12
  -- an and-reduction over all axes that is 1 met a 1 at every index, here at (i, k)
  have hbit := Host.reduce_andi_all _ _ _ _ _ h1 (ix2 i k)
  -- that element is the bit of |x i k| < +∞, the bound broadcast from a scalar
  exact real_of_bit _ hbit

end Cert.Proof.Finite

end
-- ==== Proof.lean ====
/-
  Per-graph normalisation of a 262144 × 256 matrix whose rows carry a segment id (1024 segments): every entry is
  centred by its segment's mean, divided by its segment's standard deviation plus a small ε, scaled per column and
  shifted per column.

  The kernel program sweeps the matrix twice. Its first launch leaves, per row, the sum and the sum of squares of the
  row; host operations add these per segment (a scatter-add by the ids), form `mean = S / n`,
  `var = Q / n − mean²` and `inv = 1 / (√var + ε)` with `n` the number of entries of the segment, and gather both per
  row; its second launch computes `((x − mean) · inv) · scale + shift` block by block.

  The reference adds the rows per segment column by column, sums the columns and divides by `n` for the mean, centres
  the matrix, takes the mean of the squared centred entries per segment for the variance, and computes
  `(x − mean) / (√var + ε) · scale + shift`.

  Over the extended reals the two agree where the matrix is real: summing rows first or columns first is the same sum;
  for a segment of `k` rows, `n = max 1 k · 256` is its number of entries when `k ≥ 1`, and when `k = 0` all its
  sums vanish, so `∑ (x − mean)² = Q − 2·mean·S + n·mean² = Q − n·mean²` in both cases and the two variances are one
  real number; it is non-negative (a mean of squares), so `√var + ε` is a positive real, and multiplying by its
  reciprocal is dividing by it. A row whose id is no segment contributes to no sum on either side, and its gathered
  table row is the same on both sides (the id wrapped and clamped), so nothing is asked of the ids.

  The two launches' values are read off the generated frame's proof data (KernelStats.lean, KernelNorm.lean), the host
  operations between them at an index (KernelHost.lean), the reference's run through its generated read-back
  (RefValue.lean); the identity itself is Algebra.lean over the definitions of Spec.lean.
-/
import proofs.«139286_j40578851012881_1_alg».proof.Defs
import proofs.«139286_j40578851012881_1_alg».proof.Proof.Gen.Kernel
import proofs.«139286_j40578851012881_1_alg».proof.Proof.Gen.Kernel.Skeleton
import proofs.«139286_j40578851012881_1_alg».proof.Proof.Gen.Kernel.Launch
import proofs.«139286_j40578851012881_1_alg».proof.Proof.Gen.Kernel.Points
import proofs.«139286_j40578851012881_1_alg».proof.Proof.Gen.Kernel.Frame
import proofs.«139286_j40578851012881_1_alg».proof.Proof.Gen.KernelIdeal
import proofs.«139286_j40578851012881_1_alg».proof.Proof.Gen.KernelIdeal.Skeleton
import proofs.«139286_j40578851012881_1_alg».proof.Proof.Gen.KernelIdeal.Launch
import proofs.«139286_j40578851012881_1_alg».proof.Proof.Gen.KernelIdeal.Points
import proofs.«139286_j40578851012881_1_alg».proof.Proof.Gen.KernelIdeal.Frame
import proofs.«139286_j40578851012881_1_alg».proof.Proof.Gen.ReferenceIdeal
import proofs.«139286_j40578851012881_1_alg».proof.Proof.Gen.Pre_finite_inputs
import proofs.«139286_j40578851012881_1_alg».proof.Proof.Gen.ReferenceIdeal.Run
import proofs.«139286_j40578851012881_1_alg».proof.Proof.Gen.ReferenceIdeal.Read
import proofs.«139286_j40578851012881_1_alg».proof.Proof.KernelRun
import proofs.«139286_j40578851012881_1_alg».proof.Proof.KernelValue
import proofs.«139286_j40578851012881_1_alg».proof.Proof.RefValue
import proofs.«139286_j40578851012881_1_alg».proof.Proof.Algebra
import proofs.«139286_j40578851012881_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

section Claims
variable [hKernel : Cert.Kernel.Facts] [hKernelIdeal : Cert.KernelIdeal.Facts] [hReferenceIdeal : Cert.ReferenceIdeal.Facts]
  [hPre : Cert.Pre_finite_inputs.Facts]

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result: at every entry the kernel's rows-first normalisation and the
    reference's columns-first one, of arguments that agree and a matrix of real entries, then the same scale and shift. -/
theorem algebraic : Cert.algebraic_KernelIdeal_ReferenceIdeal := by
  intro m ρ m' ρ' hpre hagree
  refine ⟨fun c => Cert.KernelIdeal.Gen.W5 m ρ c (Proc.devRef .tc Cert.KernelIdeal.main_v43),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2]
  funext j
  obtain ⟨i, k, rfl⟩ : ∃ (i : Fin 262144) (k : Fin 256), j = ix2 i k := ⟨j 0, j 1, eq_ix2 j⟩
  rw [Cert.ReferenceIdeal.RefValue.result_apply]
  refine Eq.trans ?_ (Cert.KernelIdeal.Result.result_apply m ρ c i k).symm
  rw [Cert.GraphNorm.normK_eq_normR _ _ _ (Cert.Proof.Finite.x_real m hpre c) (Cert.GraphNorm.grow_of_hit _)]

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
